-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S16384x2048 : Shape := ⟨2, ![16384, 2048]⟩
abbrev S16384x1 : Shape := ⟨2, ![16384, 1]⟩
abbrev S4096x8192 : Shape := ⟨2, ![4096, 8192]⟩
abbrev S4096x1 : Shape := ⟨2, ![4096, 1]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn {F : FTy → Type} [FloatOps F] (main_arg0 : FVec F S4096x4096 .f32) (main_arg1 : IVec S16384x2048 32) (main_arg2 : FVec F S16384x1 .f32) (main_arg3 : IVec S4096x8192 32) (main_arg4 : FVec F S4096x1 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S16384x1 .f32 := Host.absf main_arg2
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  let main_v9 : FVec F S4096x1 .f32 := Host.absf main_arg4
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  main_v13
-- ==== Kernel.lean ====
abbrev S4096x4096 : Shape := ⟨2, ![4096, 4096]⟩
abbrev S16384x2048 : Shape := ⟨2, ![16384, 2048]⟩
abbrev S16384x1 : Shape := ⟨2, ![16384, 1]⟩
abbrev S4096x8192 : Shape := ⟨2, ![4096, 8192]⟩
abbrev S4096x1 : Shape := ⟨2, ![4096, 1]⟩
abbrev S2048 : Shape := ⟨1, ![2048]⟩
abbrev S_ : Shape := ⟨0, ![]⟩
abbrev S4096 : Shape := ⟨1, ![4096]⟩
abbrev S128 : Shape := ⟨1, ![128]⟩
abbrev S256 : Shape := ⟨1, ![256]⟩
abbrev S64 : Shape := ⟨1, ![64]⟩
abbrev S64x1 : Shape := ⟨2, ![64, 1]⟩
abbrev S1x256 : Shape := ⟨2, ![1, 256]⟩
abbrev S64x256 : Shape := ⟨2, ![64, 256]⟩
abbrev S16384 : Shape := ⟨1, ![16384]⟩
abbrev S256x4096 : Shape := ⟨2, ![256, 4096]⟩
abbrev S256x2048 : Shape := ⟨2, ![256, 2048]⟩
abbrev S256x1 : Shape := ⟨2, ![256, 1]⟩
abbrev S4096x128 : Shape := ⟨2, ![4096, 128]⟩
abbrev S256x256 : Shape := ⟨2, ![256, 256]⟩
abbrev S4096x256 : Shape := ⟨2, ![4096, 256]⟩

abbrev nBuf : Space → Nat
  | .hbm => 74
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S16384x2048, .i32⟩
  | .hbm, ⟨2, _⟩ => ⟨S16384x1, .f32⟩
  | .hbm, ⟨3, _⟩ => ⟨S4096x8192, .i32⟩
  | .hbm, ⟨4, _⟩ => ⟨S4096x1, .f32⟩
  | .hbm, ⟨5, _⟩ => ⟨S2048, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S4096x4096, .f32⟩
  | .hbm, ⟨29, _⟩ => ⟨S128, .i32⟩
  | .hbm, ⟨30, _⟩ => ⟨S_, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S128, .i32⟩
  | .hbm, ⟨37, _⟩ => ⟨S_, .i32⟩
  | .hbm, ⟨38, _⟩ => ⟨S128, .i32⟩
  | .hbm, ⟨39, _⟩ => ⟨S128, .i32⟩
  | .hbm, ⟨40, _⟩ => ⟨S_, .i32⟩
  | .hbm, ⟨41, _⟩ => ⟨S128, .i32⟩
  | .hbm, ⟨42, _⟩ => ⟨S128, .i32⟩
  | .hbm, ⟨43, _⟩ => ⟨S256, .i32⟩
  | .hbm, ⟨44, _⟩ => ⟨S64, .i32⟩
  | .hbm, ⟨45, _⟩ => ⟨S_, .i32⟩
  | .hbm, ⟨46, _⟩ => ⟨S64, .i32⟩
  | .hbm, ⟨47, _⟩ => ⟨S64, .i32⟩
  | .hbm, ⟨48, _⟩ => ⟨S64x1, .i32⟩
  | .hbm, ⟨49, _⟩ => ⟨S1x256, .i32⟩
  | .hbm, ⟨50, _⟩ => ⟨S64x256, .i32⟩
  | .hbm, ⟨51, _⟩ => ⟨S64x256, .i32⟩
  | .hbm, ⟨52, _⟩ => ⟨S64x256, .i32⟩
  | .hbm, ⟨53, _⟩ => ⟨S16384, .i32⟩
  | .hbm, ⟨54, _⟩ => ⟨S_, .i32⟩
  | .hbm, ⟨55, _⟩ => ⟨S16384, .i32⟩
  | .hbm, ⟨56, _⟩ => ⟨S16384, .i1⟩
  | .hbm, ⟨57, _⟩ => ⟨S_, .i32⟩
  | .hbm, ⟨58, _⟩ => ⟨S16384, .i32⟩
  | .hbm, ⟨59, _⟩ => ⟨S16384, .i32⟩
  | .hbm, ⟨60, _⟩ => ⟨S16384, .i32⟩
  | .hbm, ⟨61, _⟩ => ⟨S16384x1, .i32⟩
  | .hbm, ⟨62, _⟩ => ⟨S16384x2048, .i32⟩
  | .hbm, ⟨63, _⟩ => ⟨S_, .i32⟩
  | .hbm, ⟨64, _⟩ => ⟨S16384, .i32⟩
  | .hbm, ⟨65, _⟩ => ⟨S16384, .i1⟩
  | .hbm, ⟨66, _⟩ => ⟨S_, .i32⟩
  | .hbm, ⟨67, _⟩ => ⟨S16384, .i32⟩
  | .hbm, ⟨68, _⟩ => ⟨S16384, .i32⟩
  | .hbm, ⟨69, _⟩ => ⟨S16384, .i32⟩
  | .hbm, ⟨70, _⟩ => ⟨S16384x1, .i32⟩
  | .hbm, ⟨71, _⟩ => ⟨S16384x1, .f32⟩
  | .hbm, ⟨72, _⟩ => ⟨S4096x4096, .bf16⟩
  | .hbm, ⟨73, _⟩ => ⟨S4096x4096, .f32⟩
  | .local _ .vmem, ⟨0, _⟩ => ⟨S256x4096, .bf16⟩
  | .local _ .vmem, ⟨1, _⟩ => ⟨S256x4096, .bf16⟩
  | .local _ .vmem, ⟨2, _⟩ => ⟨S256x2048, .i32⟩
  | .local _ .vmem, ⟨3, _⟩ => ⟨S256x2048, .i32⟩
  | .local _ .vmem, ⟨4, _⟩ => ⟨S256x1, .f32⟩
  | .local _ .vmem, ⟨5, _⟩ => ⟨S256x1, .f32⟩
  | .local _ .vmem, ⟨6, _⟩ => ⟨S4096x128, .i32⟩
  | .local _ .vmem, ⟨7, _⟩ => ⟨S4096x128, .i32⟩
  | .local _ .vmem, ⟨8, _⟩ => ⟨S4096x1, .f32⟩
  | .local _ .vmem, ⟨9, _⟩ => ⟨S256x4096, .f32⟩
  | .local _ .vmem, ⟨10, _⟩ => ⟨S256x4096, .f32⟩
  | .local _ .vmem, ⟨11, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_7 : Ref sig .tc := ⟨.hbm, 37, rfl⟩
abbrev main_v24 : Ref sig .tc := ⟨.hbm, 38, rfl⟩
abbrev main_v25 : Ref sig .tc := ⟨.hbm, 39, rfl⟩
abbrev main_c_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_10 : Ref sig .tc := ⟨.hbm, 54, rfl⟩
abbrev main_v38 : Ref sig .tc := ⟨.hbm, 55, rfl⟩
abbrev main_v39 : Ref sig .tc := ⟨.hbm, 56, rfl⟩
abbrev main_c_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_12 : Ref sig .tc := ⟨.hbm, 63, rfl⟩
abbrev main_v45 : Ref sig .tc := ⟨.hbm, 64, rfl⟩
abbrev main_v46 : Ref sig .tc := ⟨.hbm, 65, rfl⟩
abbrev main_c_13 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 64], ![false, false]⟩

def k0_cond2 (i : grid0.Coords) : BitVec 1 :=
  let arg1 : BitVec 32 := BitVec.ofNat 32 (i 1).val
  let c63_i32 : BitVec 32 := 63#32
  let v58 : BitVec 1 := Scalar.cmpi .eq arg1 c63_i32
  let v59 : BitVec 32 := Scalar.extui v58
  let c0_i32_24 : BitVec 32 := 0#32
  let v60 : BitVec 1 := Scalar.cmpi .ne v59 c0_i32_24
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S2048 : S_.BroadcastsInDim S2048 (![] : Fin 0 → Fin S2048.rank)
  concatenates_S2048_S2048_S4096_d0 : Shape.Concatenates [S2048, S2048] S4096 0
  bcast_S_S4096 : S_.BroadcastsInDim S4096 (![] : Fin 0 → Fin S4096.rank)
  bcast_S4096_S4096x1_0 : S4096.BroadcastsInDim S4096x1 (![0] : Fin 1 → Fin S4096x1.rank)
  bcast_S_S128 : S_.BroadcastsInDim S128 (![] : Fin 0 → Fin S128.rank)
  concatenates_S128_S128_S256_d0 : Shape.Concatenates [S128, S128] S256 0
  bcast_S_S64 : S_.BroadcastsInDim S64 (![] : Fin 0 → Fin S64.rank)
  bcast_S64_S64x1_0 : S64.BroadcastsInDim S64x1 (![0] : Fin 1 → Fin S64x1.rank)
  bcast_S256_S1x256_1 : S256.BroadcastsInDim S1x256 (![1] : Fin 1 → Fin S1x256.rank)
  bcast_S64x1_S64x256_0_1 : S64x1.BroadcastsInDim S64x256 (![0, 1] : Fin 2 → Fin S64x256.rank)
  bcast_S1x256_S64x256_0_1 : S1x256.BroadcastsInDim S64x256 (![0, 1] : Fin 2 → Fin S64x256.rank)
  shapeCasts_S64x256_S16384 : S64x256.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  concatenates_S256x2048_S256x2048_S256x4096_d1 : Shape.Concatenates [S256x2048, S256x2048] S256x4096 1
  broadcasts_S256x1_S256x4096 : S256x1.Broadcasts S256x4096
  inb_S4096x128_S4096x128_0_0 : ∀ a, (![0, 0] : Fin 2 → Nat) a + S4096x128.size a ≤ S4096x128.size a
  h_S4096x128 : 0 < S4096x128.numel
  inb_S4096x1_S4096x1_0_0 : ∀ a, (![0, 0] : Fin 2 → Nat) a + S4096x1.size a ≤ S4096x1.size a
  h_S4096x1 : 0 < S4096x1.numel
  concatenates_S4096x128_S4096x128_S4096x256_d1 : Shape.Concatenates [S4096x128, S4096x128] S4096x256 1
  broadcasts_S4096x1_S4096x256 : S4096x1.Broadcasts S4096x256
  gather_S4096x4096_S4096x1_S4096x4096_0_1_n_n_1_1_40961_wf : GatherDims.WF S4096x4096 S4096x1 S4096x4096 [0] [1] [] [1] [] 1 ![4096, 1]
  gather_S16384x2048_S16384x1_S16384x2048_1_0_n_n_0_1_12048_wf : GatherDims.WF S16384x2048 S16384x1 S16384x2048 [1] [0] [] [0] [] 1 ![1, 2048]
  gather_S16384x1_S16384x1_S16384x1_1_0_n_n_0_1_11_wf : GatherDims.WF S16384x1 S16384x1 S16384x1 [1] [0] [] [0] [] 1 ![1, 1]
  dot_S256x4096_S256x4096_S256x256_1_1_0_0_n_n_wf : DotDims.WF S256x4096 S256x4096 S256x256 [1] [1] [0] [0] [] []
  dot_S256x256_S4096x256_S256x4096_1_1_0_0_n_n_wf : DotDims.WF S256x256 S4096x256 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .bf16 = 32 ∨ (Rect.block (s := S4096x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S16384x2048.size a
  hwx0_1 : ∀ i : grid0.Coords, EltTy.bits .i32 = 32 ∨ (Rect.block (s := S16384x2048) S256x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .f32 = 32 ∨ (Rect.block (s := S16384x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x8192.size a
  hwx0_3 : ∀ i : grid0.Coords, EltTy.bits .i32 = 32 ∨ (Rect.block (s := S4096x8192) S4096x128.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1.size a ≤ S4096x1.size a
  hwx0_4 : ∀ i : grid0.Coords, EltTy.bits .f32 = 32 ∨ (Rect.block (s := S4096x1) S4096x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S4096x4096.size a
  hwx0_5 : ∀ i : grid0.Coords, EltTy.bits .f32 = 32 ∨ (Rect.block (s := S4096x4096) S256x4096.size (cc0_transform_5 i) (hinb0_5 i)).WholeWords (EltTy.packing .f32)

variable [Facts₀]

def gather_S4096x4096_S4096x1_S4096x4096_0_1_n_n_1_1_40961 : GatherDims S4096x4096 S4096x1 S4096x4096 where
  offsetDims := [0]
  collapsedSliceDims := [1]
  operandBatchingDims := []
  startIndicesBatchingDims := []
  startIndexMap := [1]
  indexVectorDim := 1
  sliceSizes := ![4096, 1]
  wf := gather_S4096x4096_S4096x1_S4096x4096_0_1_n_n_1_1_40961_wf
def gather_S16384x2048_S16384x1_S16384x2048_1_0_n_n_0_1_12048 : GatherDims S16384x2048 S16384x1 S16384x2048 where
  offsetDims := [1]
  collapsedSliceDims := [0]
  operandBatchingDims := []
  startIndicesBatchingDims := []
  startIndexMap := [0]
  indexVectorDim := 1
  sliceSizes := ![1, 2048]
  wf := gather_S16384x2048_S16384x1_S16384x2048_1_0_n_n_0_1_12048_wf
def gather_S16384x1_S16384x1_S16384x1_1_0_n_n_0_1_11 : GatherDims S16384x1 S16384x1 S16384x1 where
  offsetDims := [1]
  collapsedSliceDims := [0]
  operandBatchingDims := []
  startIndicesBatchingDims := []
  startIndexMap := [0]
  indexVectorDim := 1
  sliceSizes := ![1, 1]
  wf := gather_S16384x1_S16384x1_S16384x1_1_0_n_n_0_1_11_wf
def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf

abbrev win0_0 : Pipeline.Window sig grid0 :=
  Pipeline.Window.ofSpec (Memref.whole main_v52) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v53) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x4096 : Shape := ⟨2, ![4096, 4096]⟩
abbrev S16384x2048 : Shape := ⟨2, ![16384, 2048]⟩
abbrev S16384x1 : Shape := ⟨2, ![16384, 1]⟩
abbrev S4096x8192 : Shape := ⟨2, ![4096, 8192]⟩
abbrev S4096x1 : Shape := ⟨2, ![4096, 1]⟩
abbrev S_ : Shape := ⟨0, ![]⟩
abbrev S16384x2048x1 : Shape := ⟨3, ![16384, 2048, 1]⟩
abbrev S16384x2048x2 : Shape := ⟨3, ![16384, 2048, 2]⟩
abbrev S16384x4096 : Shape := ⟨2, ![16384, 4096]⟩
abbrev S4096x8192x1 : Shape := ⟨3, ![4096, 8192, 1]⟩
abbrev S4096x8192x2 : Shape := ⟨3, ![4096, 8192, 2]⟩
abbrev S4096x16384 : Shape := ⟨2, ![4096, 16384]⟩

abbrev nBuf : Space → Nat
  | .hbm => 64
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S16384x2048, .i32⟩
  | .hbm, ⟨2, _⟩ => ⟨S16384x1, .f32⟩
  | .hbm, ⟨3, _⟩ => ⟨S4096x8192, .i32⟩
  | .hbm, ⟨4, _⟩ => ⟨S4096x1, .f32⟩
  | .hbm, ⟨5, _⟩ => ⟨S_, .i32⟩
  | .hbm, ⟨6, _⟩ => ⟨S16384x2048, .i32⟩
  | .hbm, ⟨7, _⟩ => ⟨S16384x2048, .i32⟩
  | .hbm, ⟨8, _⟩ => ⟨S_, .i32⟩
  | .hbm, ⟨9, _⟩ => ⟨S16384x2048, .i32⟩
  | .hbm, ⟨10, _⟩ => ⟨S16384x2048, .i32⟩
  | .hbm, ⟨11, _⟩ => ⟨S_, .i32⟩
  | .hbm, ⟨12, _⟩ => ⟨S16384x2048, .i32⟩
  | .hbm, ⟨13, _⟩ => ⟨S16384x2048, .i32⟩
  | .hbm, ⟨14, _⟩ => ⟨S_, .i32⟩
  | .hbm, ⟨15, _⟩ => ⟨S16384x2048, .i32⟩
  | .hbm, ⟨16, _⟩ => ⟨S16384x2048, .i32⟩
  | .hbm, ⟨17, _⟩ => ⟨S16384x2048x1, .i32⟩
  | .hbm, ⟨18, _⟩ => ⟨S16384x2048x1, .i32⟩
  | .hbm, ⟨19, _⟩ => ⟨S16384x2048x2, .i32⟩
  | .hbm, ⟨20, _⟩ => ⟨S16384x4096, .i32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S_, .i32⟩
  | .hbm, ⟨25, _⟩ => ⟨S4096x8192, .i32⟩
  | .hbm, ⟨26, _⟩ => ⟨S4096x8192, .i32⟩
  | .hbm, ⟨27, _⟩ => ⟨S_, .i32⟩
  | .hbm, ⟨28, _⟩ => ⟨S4096x8192, .i32⟩
  | .hbm, ⟨29, _⟩ => ⟨S4096x8192, .i32⟩
  | .hbm, ⟨30, _⟩ => ⟨S_, .i32⟩
  | .hbm, ⟨31, _⟩ => ⟨S4096x8192, .i32⟩
  | .hbm, ⟨32, _⟩ => ⟨S4096x8192, .i32⟩
  | .hbm, ⟨33, _⟩ => ⟨S_, .i32⟩
  | .hbm, ⟨34, _⟩ => ⟨S4096x8192, .i32⟩
  | .hbm, ⟨35, _⟩ => ⟨S4096x8192, .i32⟩
  | .hbm, ⟨36, _⟩ => ⟨S4096x8192x1, .i32⟩
  | .hbm, ⟨37, _⟩ => ⟨S4096x8192x1, .i32⟩
  | .hbm, ⟨38, _⟩ => ⟨S4096x8192x2, .i32⟩
  | .hbm, ⟨39, _⟩ => ⟨S4096x16384, .i32⟩
  | .hbm, ⟨40, _⟩ => ⟨S4096x16384, .f32⟩
  | .hbm, ⟨41, _⟩ => ⟨S4096x16384, .f32⟩
  | .hbm, ⟨42, _⟩ => ⟨S4096x16384, .f32⟩
  | .hbm, ⟨43, _⟩ => ⟨S4096x16384, .f32⟩
  | .hbm, ⟨44, _⟩ => ⟨S4096x16384, .f32⟩
  | .hbm, ⟨45, _⟩ => ⟨S4096x16384, .f32⟩
  | .hbm, ⟨46, _⟩ => ⟨S4096x16384, .f32⟩
  | .hbm, ⟨47, _⟩ => ⟨S_, .f32⟩
  | .hbm, ⟨48, _⟩ => ⟨S4096x16384, .f32⟩
  | .hbm, ⟨49, _⟩ => ⟨S4096x16384, .f32⟩
  | .hbm, ⟨50, _⟩ => ⟨S4096x16384, .f32⟩
  | .hbm, ⟨51, _⟩ => ⟨S_, .f32⟩
  | .hbm, ⟨52, _⟩ => ⟨S4096x16384, .f32⟩
  | .hbm, ⟨53, _⟩ => ⟨S4096x16384, .f32⟩
  | .hbm, ⟨54, _⟩ => ⟨S4096x16384, .f32⟩
  | .hbm, ⟨55, _⟩ => ⟨S_, .f32⟩
  | .hbm, ⟨56, _⟩ => ⟨S4096x16384, .f32⟩
  | .hbm, ⟨57, _⟩ => ⟨S4096x16384, .f32⟩
  | .hbm, ⟨58, _⟩ => ⟨S_, .f32⟩
  | .hbm, ⟨59, _⟩ => ⟨S4096x16384, .f32⟩
  | .hbm, ⟨60, _⟩ => ⟨S4096x16384, .f32⟩
  | .hbm, ⟨61, _⟩ => ⟨S4096x16384, .f32⟩
  | .hbm, ⟨62, _⟩ => ⟨S16384x4096, .f32⟩
  | .hbm, ⟨63, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  bcast_S_S16384x2048 : S_.BroadcastsInDim S16384x2048 (![] : Fin 0 → Fin S16384x2048.rank)
  bcast_S16384x2048_S16384x2048x1_0_1 : S16384x2048.BroadcastsInDim S16384x2048x1 (![0, 1] : Fin 2 → Fin S16384x2048x1.rank)
  concatenates_S16384x2048x1_S16384x2048x1_S16384x2048x2_d2 : Shape.Concatenates [S16384x2048x1, S16384x2048x1] S16384x2048x2 2
  shapeCasts_S16384x2048x2_S16384x4096 : S16384x2048x2.ShapeCasts S16384x4096
  bcast_S16384x1_S16384x4096_0_1 : S16384x1.BroadcastsInDim S16384x4096 (![0, 1] : Fin 2 → Fin S16384x4096.rank)
  bcast_S_S4096x8192 : S_.BroadcastsInDim S4096x8192 (![] : Fin 0 → Fin S4096x8192.rank)
  bcast_S4096x8192_S4096x8192x1_0_1 : S4096x8192.BroadcastsInDim S4096x8192x1 (![0, 1] : Fin 2 → Fin S4096x8192x1.rank)
  concatenates_S4096x8192x1_S4096x8192x1_S4096x8192x2_d2 : Shape.Concatenates [S4096x8192x1, S4096x8192x1] S4096x8192x2 2
  shapeCasts_S4096x8192x2_S4096x16384 : S4096x8192x2.ShapeCasts S4096x16384
  bcast_S4096x1_S4096x16384_0_1 : S4096x1.BroadcastsInDim S4096x16384 (![0, 1] : Fin 2 → Fin S4096x16384.rank)
  transposes_S16384x4096_S4096x16384_1_0 : S16384x4096.Transposes [1, 0] S4096x16384
  bcast_S_S4096x16384 : S_.BroadcastsInDim S4096x16384 (![] : Fin 0 → Fin S4096x16384.rank)
  transposes_S4096x16384_S16384x4096_1_0 : S4096x16384.Transposes [1, 0] S16384x4096
  dot_S4096x4096_S4096x16384_S4096x16384_1_0_0_1_n_n_wf : DotDims.WF S4096x4096 S4096x16384 S4096x16384 [1] [0] [0] [1] [] []
  dot_S4096x16384_S16384x4096_S4096x4096_1_0_0_1_n_n_wf : DotDims.WF S4096x16384 S16384x4096 S4096x4096 [1] [0] [0] [1] [] []

variable [Facts₀]

def dot_S4096x4096_S4096x16384_S4096x16384_1_0_0_1_n_n : DotDims S4096x4096 S4096x16384 S4096x16384 where
  lhsContracting := [1]
  rhsContracting := [0]
  lhsNonContracting := [0]
  rhsNonContracting := [1]
  lhsBatch := []
  rhsBatch := []
  wf := dot_S4096x4096_S4096x16384_S4096x16384_1_0_0_1_n_n_wf
def dot_S4096x16384_S16384x4096_S4096x4096_1_0_0_1_n_n : DotDims S4096x16384 S16384x4096 S4096x4096 where
  lhsContracting := [1]
  rhsContracting := [0]
  lhsNonContracting := [0]
  rhsNonContracting := [1]
  lhsBatch := []
  rhsBatch := []
  wf := dot_S4096x16384_S16384x4096_S4096x4096_1_0_0_1_n_n_wf

class Facts : Prop extends Facts₀ where

variable [Facts]
-- ==== Proof.Pieces.lean ====
/-
  What one grid point leaves in the accumulator, as a value of the point's input blocks: at the first point of a run
  over the hidden axis the accumulator is reset to zero and the point's contribution added; at every later point the
  contribution is added to what the point before left; at the run's last point the output block is a copy of it.
  The contribution of a point is the second-layer product of the activation block with the dequantized block.
-/
import proofs.«429706_j59657095741907_2_alg».proof.Proof.Gen.KernelIdeal.Frame
import Idealize.ShloMosaic.Lib.Pipeline.Value
import Idealize.ShloMosaic.Lib.Tactic

noncomputable section

namespace QuantMlp.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- One point's step on the accumulator: what it held plus the point's contribution. -/
abbrev step (x0 : Vec F S256x4096 .bf16) (x1 : Vec F S256x2048 .i32) (x2 : Vec F S256x1 .f32) (x3 : Vec F S4096x128 .i32) (x4 : Vec F S4096x1 .f32) (acc : Vec F S256x4096 .f32) : Vec F S256x4096 .f32 :=
  k0_pay1 (k0_pay3 x0 x1 x2) x3 x4 acc

/-- First point of a run: the reset, then the step over the zero block. -/
theorem scratch_A (c : Dev nD) (i : grid0.Coords) (arg2 : Memref sig .tc .vmem S256x4096 .bf16) (harg2 : arg2.IsWhole) (arg3 : Memref sig .tc .vmem S256x2048 .i32) (harg3 : arg3.IsWhole) (arg4 : Memref sig .tc .vmem S256x1 .f32) (harg4 : arg4.IsWhole) (arg5 : Memref sig .tc .vmem S4096x128 .i32) (harg5 : arg5.IsWhole) (arg6 : Memref sig .tc .vmem S4096x1 .f32) (harg6 : arg6.IsWhole) (arg7 : Memref sig .tc .vmem S256x4096 .f32) (harg7 : arg7.IsWhole) (arg8 : Memref sig .tc .vmem S256x4096 .f32) (harg8 : arg8.IsWhole) (hc0 : cond0_0 i) (hc1 : ¬cond0_1 i) (x0 : Vec F S256x4096 .bf16) (x1 : Vec F S256x2048 .i32) (x2 : Vec F S256x1 .f32) (x3 : Vec F S4096x128 .i32) (x4 : Vec F S4096x1 .f32) :
    sout0_A_0 c i arg2 harg2 arg3 harg3 arg4 harg4 arg5 harg5 arg6 harg6 arg7 harg7 arg8 harg8 hc0 hc1 x0 x1 x2 x3 x4 = step x0 x1 x2 x3 x4 (k0_pay2 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S256x4096) hz]
  simp only [View.readAt_eq_ld, harg2.read_unread, harg3.read_unread, harg4.read_unread, harg5.read_unread, harg6.read_unread, harg7.read_unread, harg8.read_unread, View.ld_unit_zero (S := S256x4096) hz, View.ld_unit_zero (S := S256x2048) hz, View.ld_unit_zero (S := S256x1) hz, View.ld_unit_zero (S := S4096x128) hz, View.ld_unit_zero (S := S4096x1) hz, View.readCov_unit_zero (S := S256x4096) _ hz]

/-- A middle point: the step over what the point before left. -/
theorem scratch_B (c : Dev nD) (i : grid0.Coords) (arg2 : Memref sig .tc .vmem S256x4096 .bf16) (harg2 : arg2.IsWhole) (arg3 : Memref sig .tc .vmem S256x2048 .i32) (harg3 : arg3.IsWhole) (arg4 : Memref sig .tc .vmem S256x1 .f32) (harg4 : arg4.IsWhole) (arg5 : Memref sig .tc .vmem S4096x128 .i32) (harg5 : arg5.IsWhole) (arg6 : Memref sig .tc .vmem S4096x1 .f32) (harg6 : arg6.IsWhole) (arg7 : Memref sig .tc .vmem S256x4096 .f32) (harg7 : arg7.IsWhole) (arg8 : Memref sig .tc .vmem S256x4096 .f32) (harg8 : arg8.IsWhole) (hc0 : ¬cond0_0 i) (hc1 : ¬cond0_1 i) (x0 : Vec F S256x4096 .bf16) (x1 : Vec F S256x2048 .i32) (x2 : Vec F S256x1 .f32) (x3 : Vec F S4096x128 .i32) (x4 : Vec F S4096x1 .f32) (xs0 : Vec F S256x4096 .f32) :
    sout0_B_0 c i arg2 harg2 arg3 harg3 arg4 harg4 arg5 harg5 arg6 harg6 arg7 harg7 arg8 harg8 hc0 hc1 x0 x1 x2 x3 x4 xs0 = step x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S256x4096) hz, View.ld_unit_zero (S := S256x2048) hz, View.ld_unit_zero (S := S256x1) hz, View.ld_unit_zero (S := S4096x128) hz, View.ld_unit_zero (S := S4096x1) hz, View.readCov_unit_zero (S := S256x4096) _ hz]

/-- The last point of a run: the same step … -/
theorem scratch_C (c : Dev nD) (i : grid0.Coords) (arg2 : Memref sig .tc .vmem S256x4096 .bf16) (harg2 : arg2.IsWhole) (arg3 : Memref sig .tc .vmem S256x2048 .i32) (harg3 : arg3.IsWhole) (arg4 : Memref sig .tc .vmem S256x1 .f32) (harg4 : arg4.IsWhole) (arg5 : Memref sig .tc .vmem S4096x128 .i32) (harg5 : arg5.IsWhole) (arg6 : Memref sig .tc .vmem S4096x1 .f32) (harg6 : arg6.IsWhole) (arg7 : Memref sig .tc .vmem S256x4096 .f32) (harg7 : arg7.IsWhole) (arg8 : Memref sig .tc .vmem S256x4096 .f32) (harg8 : arg8.IsWhole) (hc0 : ¬cond0_0 i) (hc1 : cond0_1 i) (x0 : Vec F S256x4096 .bf16) (x1 : Vec F S256x2048 .i32) (x2 : Vec F S256x1 .f32) (x3 : Vec F S4096x128 .i32) (x4 : Vec F S4096x1 .f32) (xs0 : Vec F S256x4096 .f32) :
    sout0_C_0 c i arg2 harg2 arg3 harg3 arg4 harg4 arg5 harg5 arg6 harg6 arg7 harg7 arg8 harg8 hc0 hc1 x0 x1 x2 x3 x4 xs0 = step x0 x1 x2 x3 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S256x4096) hz, View.ld_unit_zero (S := S256x2048) hz, View.ld_unit_zero (S := S256x1) hz, View.ld_unit_zero (S := S4096x128) hz, View.ld_unit_zero (S := S4096x1) hz, View.readCov_unit_zero (S := S256x4096) _ hz]

/-- … and the output block is a copy of the accumulator after it. -/
theorem out_C (c : Dev nD) (i : grid0.Coords) (arg2 : Memref sig .tc .vmem S256x4096 .bf16) (harg2 : arg2.IsWhole) (arg3 : Memref sig .tc .vmem S256x2048 .i32) (harg3 : arg3.IsWhole) (arg4 : Memref sig .tc .vmem S256x1 .f32) (harg4 : arg4.IsWhole) (arg5 : Memref sig .tc .vmem S4096x128 .i32) (harg5 : arg5.IsWhole) (arg6 : Memref sig .tc .vmem S4096x1 .f32) (harg6 : arg6.IsWhole) (arg7 : Memref sig .tc .vmem S256x4096 .f32) (harg7 : arg7.IsWhole) (arg8 : Memref sig .tc .vmem S256x4096 .f32) (harg8 : arg8.IsWhole) (hc0 : ¬cond0_0 i) (hc1 : cond0_1 i) (x0 : Vec F S256x4096 .bf16) (x1 : Vec F S256x2048 .i32) (x2 : Vec F S256x1 .f32) (x3 : Vec F S4096x128 .i32) (x4 : Vec F S4096x1 .f32) (xs0 : Vec F S256x4096 .f32) :
    out0_C_5 c i arg2 harg2 arg3 harg3 arg4 harg4 arg5 harg5 arg6 harg6 arg7 harg7 arg8 harg8 hc0 hc1 x0 x1 x2 x3 x4 xs0 = step x0 x1 x2 x3 x4 xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S256x4096) hz, View.ld_unit_zero (S := S256x2048) hz, View.ld_unit_zero (S := S256x1) hz, View.ld_unit_zero (S := S4096x128) hz, View.ld_unit_zero (S := S4096x1) hz, View.readCov_unit_zero (S := S256x4096) _ hz]

end QuantMlp.Pieces

end
-- ==== Proof.Spec.lean ====
/-
  The function both programs compute, and the two column orders the kernel's wrapper compensates for.

  A packed word holds two signed 4-bit weights: the high nibble (arithmetic shift right by 4, minus 8) and the low
  nibble (the word's low four bits, minus 8). A quantized matrix row-scales them: column 2k of a row is the high
  nibble of packed column k, column 2k + 1 the low one, times the row's scale. With W1 (hidden × model) and W2
  (model × hidden) dequantized this way the result is
      out(n, d) = Σ_h gelu(Σ_e x(n, e) · W1(h, e)) · W2(d, h),
  gelu the tanh approximation s · (1/2 · (1 + tanh(c₂ · (s + c₁ · s³)))) with the two f32 literals c₁, c₂.

  The kernel dequantizes a block by CONCATENATING the high nibbles before the low ones, so position e of a 2n-wide
  block holds original column 2·(e mod n) + ⌊e / n⌋ (`unzip`). Its wrapper permutes x's columns by that order over
  the whole model axis (n = 2048), and W1's rows by that order inside every 256-row block of the hidden axis (n = 128).
-/
import Idealize.ShloMosaic.PureOps.Ideal
import Idealize.ShloMosaic.Lib.ValueIdx

noncomputable section

namespace QuantMlp

open Idealize.ShloMosaic Idealize.ShloMosaic.ValueIdx

/-! ## The nibbles of a packed word -/

/-- An arithmetic shift right by four is the same word on the vector unit, the scalar unit and the host: four is below the width. -/
theorem shrsi_four (u : ArithUnit) (p : BitVec 32) : IntOp.shrsi u p 4#32 = p.sshiftRight' 4#32 := by
  unfold IntOp.shrsi; exact if_pos (by decide)

/-- The high nibble's weight as a word: the word shifted right by four (sign kept), minus eight. -/
def hiW (p : BitVec 32) : BitVec 32 := IntOp.subi (p.sshiftRight' 4#32) 8#32
/-- The low nibble's weight as a word: the low four bits, minus eight. -/
def loW (p : BitVec 32) : BitVec 32 := IntOp.subi (IntOp.andi p 15#32) 8#32

/-- The weight of nibble `b` (0 the high one, 1 the low one) of a packed word, as an extended real. -/
def nib (p : BitVec 32) (b : Fin 2) : EReal :=
  FloatOps.sitofp (F := Ideal) .f32 (if b.val = 0 then hiW p else loW p)

/-! ## The activation -/

/-- The tanh approximation of gelu, with the f32 literals 0.044715, 0.7978846, 1 and 1/2 at their binary values. -/
def gelu (s : EReal) : EReal :=
  s * (Ideal.ofBits .f32 0x3F000000#32 * (Ideal.ofBits .f32 0x3F800000#32
    + Ideal.tanh (Ideal.ofBits .f32 0x3F4C422A#32 * (s + Ideal.ofBits .f32 0x3D372713#32 * (s * (s * s))))))

/-! ## The dequantized matrices and the result -/

/-- Column `e` of a dequantized row lives in packed column ⌊e / 2⌋ … -/
def half {n : Nat} (e : Fin (2 * n)) : Fin n := ⟨e.val / 2, by have := e.isLt; omega⟩
/-- … in the nibble e mod 2 (even: high, odd: low). -/
def par {n : Nat} (e : Fin (2 * n)) : Fin 2 := ⟨e.val % 2, Nat.mod_lt _ (by decide)⟩

/-- W1(h, e): the first layer's weight, hidden unit h, model column e. -/
def w1 (p1 : (⟨2, ![16384, 2048]⟩ : Shape).Idx → BitVec 32) (s1 : (⟨2, ![16384, 1]⟩ : Shape).Idx → EReal)
    (h : Fin 16384) (e : Fin 4096) : EReal :=
  nib (p1 (ix2 h (half (n := 2048) e))) (par (n := 2048) e) * s1 (ix2 h (0 : Fin 1))

/-- W2(d, h): the second layer's weight, model row d, hidden unit h. -/
def w2 (p2 : (⟨2, ![4096, 8192]⟩ : Shape).Idx → BitVec 32) (s2 : (⟨2, ![4096, 1]⟩ : Shape).Idx → EReal)
    (d : Fin 4096) (h : Fin 16384) : EReal :=
  nib (p2 (ix2 d (half (n := 8192) h))) (par (n := 8192) h) * s2 (ix2 d (0 : Fin 1))

/-- The pre-activation of token n at hidden unit h. -/
def pre (x : (⟨2, ![4096, 4096]⟩ : Shape).Idx → EReal) (p1 : (⟨2, ![16384, 2048]⟩ : Shape).Idx → BitVec 32)
    (s1 : (⟨2, ![16384, 1]⟩ : Shape).Idx → EReal) (n : Fin 4096) (h : Fin 16384) : EReal :=
  ∑ e : Fin 4096, x (ix2 n e) * w1 p1 s1 h e

/-- THE RESULT: out(n, d) = Σ_h gelu(pre(n, h)) · W2(d, h). -/
def G (x : (⟨2, ![4096, 4096]⟩ : Shape).Idx → EReal) (p1 : (⟨2, ![16384, 2048]⟩ : Shape).Idx → BitVec 32)
    (s1 : (⟨2, ![16384, 1]⟩ : Shape).Idx → EReal) (p2 : (⟨2, ![4096, 8192]⟩ : Shape).Idx → BitVec 32)
    (s2 : (⟨2, ![4096, 1]⟩ : Shape).Idx → EReal) : (⟨2, ![4096, 4096]⟩ : Shape).Idx → EReal :=
  fun i => ∑ h : Fin 16384, gelu (pre x p1 s1 (i 0) h) * w2 p2 s2 (i 1) h

/-! ## The concatenated order -/

/-- Position e of a block whose high nibbles come before its low ones holds original column 2·(e mod n) + ⌊e / n⌋. -/
def unzip (n : Nat) (e : Fin (2 * n)) : Fin (2 * n) :=
  ⟨2 * (e.val % n) + e.val / n, by
    have h := e.isLt
    have hn : 0 < n := Nat.pos_of_ne_zero (fun h0 => by subst h0; omega)
    have h1 : e.val / n < 2 := (Nat.div_lt_iff_lt_mul hn).2 (by omega)
    have h2 : e.val % n < n := Nat.mod_lt _ hn
    omega⟩

/-- The wrapper's order of x's columns: `unzip` over the whole model axis. -/
def permD (e : Fin 4096) : Fin 4096 := unzip 2048 e
/-- The order inside one 256-wide block of the hidden axis. -/
def permL (e : Fin 256) : Fin 256 := unzip 128 e
/-- Hidden unit of block q at in-block position j, in the wrapper's order of W1's rows. -/
def blockH (q : Fin 64) (j : Fin 256) : Fin 16384 :=
  ⟨q.val * 256 + (permL j).val, by have := q.isLt; have := (permL j).isLt; omega⟩
/-- The wrapper's order of W1's rows: inside every 256-row block, `unzip`. -/
def permH (h : Fin 16384) : Fin 16384 :=
  blockH ⟨h.val / 256, by have := h.isLt; omega⟩ ⟨h.val % 256, Nat.mod_lt _ (by decide)⟩

/-- A block dequantized the kernel's way, first layer: row j of a 256 × 2048 packed block at position e of 4096:
    positions below 2048 are high nibbles, the others low ones. -/
def cat1 (p : (⟨2, ![256, 2048]⟩ : Shape).Idx → BitVec 32) (s : (⟨2, ![256, 1]⟩ : Shape).Idx → EReal)
    (j : Fin 256) (e : Fin 4096) : EReal :=
  nib (p (ix2 j (⟨e.val % 2048, Nat.mod_lt _ (by decide)⟩ : Fin 2048)))
    (⟨e.val / 2048, by have := e.isLt; omega⟩ : Fin 2) * s (ix2 j (0 : Fin 1))

/-- The same for the second layer: row d of a 4096 × 128 packed block at position e of 256. -/
def cat2 (p : (⟨2, ![4096, 128]⟩ : Shape).Idx → BitVec 32) (s : (⟨2, ![4096, 1]⟩ : Shape).Idx → EReal)
    (d : Fin 4096) (e : Fin 256) : EReal :=
  nib (p (ix2 d (⟨e.val % 128, Nat.mod_lt _ (by decide)⟩ : Fin 128)))
    (⟨e.val / 128, by have := e.isLt; omega⟩ : Fin 2) * s (ix2 d (0 : Fin 1))

end QuantMlp

end
-- ==== Proof.PayloadAccum.lean ====
/-
  The body's accumulation step and its reset, at an entry, at the ideal values.

  The reset stores the zero word's value, 0, at every entry. The accumulation step adds to the scratch a product that
  contracts the second axis of both operands: entry (r, d) gains Σ_e A(r, e) · B(d, e), where A is the activation block
  and B the second-layer block dequantized with its high nibbles in columns 0 … 127 and its low nibbles in columns
  128 … 255, each row times its scale.
-/
import proofs.«429706_j59657095741907_2_alg».proof.Proof.Gen.KernelIdeal.Skeleton
import proofs.«429706_j59657095741907_2_alg».proof.Proof.Spec
import Idealize.ShloMosaic.PureOps.Ideal.Laws
import Idealize.ShloMosaic.Lib.ValueIdx
import Idealize.ShloMosaic.Lib.Pipeline.Value

noncomputable section

namespace QuantMlp.Body

open Cert.KernelIdeal Cert.KernelIdeal.Gen Idealize.ShloMosaic Idealize.ShloMosaic.ValueIdx QuantMlp

/-- The reset payload is zero everywhere. -/
theorem zero_apply (i : S256x4096.Idx) : k0_pay2 (F := Ideal) i = 0 := by
  unfold k0_pay2
  refine (congrFun (shapeCast_self _ _) i).trans ?_
  exact Ideal.ofBits_zero_f32

/-! ## The product at an entry -/

/-- The left operand's row is the entry's row … -/
theorem lhs_acc_0 (i : S256x4096.Idx) (q : dot_S256x256_S4096x256_S256x4096_1_1_0_0_n_n.contr.Idx) :
    (dot_S256x256_S4096x256_S256x4096_1_1_0_0_n_n.lhsIdx i q 0).val = (i 0).val := by
  unfold DotDims.lhsIdx
  rw [dif_neg (show ¬(0 : Fin S256x256.rank) ∈ dot_S256x256_S4096x256_S256x4096_1_1_0_0_n_n.lhsBatch by decide), dif_pos (show (0 : Fin S256x256.rank) ∈ dot_S256x256_S4096x256_S256x4096_1_1_0_0_n_n.lhsNonContracting by decide)]
  rfl
/-- … its column the contraction position. -/
theorem lhs_acc_1 (i : S256x4096.Idx) (q : dot_S256x256_S4096x256_S256x4096_1_1_0_0_n_n.contr.Idx) :
    (dot_S256x256_S4096x256_S256x4096_1_1_0_0_n_n.lhsIdx i q 1).val = (q ⟨0, by decide⟩).val :=
  dot_S256x256_S4096x256_S256x4096_1_1_0_0_n_n.lhsIdx_val_of_single rfl i q
/-- The right operand's row is the entry's column … -/
theorem rhs_acc_0 (i : S256x4096.Idx) (q : dot_S256x256_S4096x256_S256x4096_1_1_0_0_n_n.contr.Idx) :
    (dot_S256x256_S4096x256_S256x4096_1_1_0_0_n_n.rhsIdx i q 0).val = (i 1).val := by
  unfold DotDims.rhsIdx
  rw [dif_neg (show ¬(0 : Fin S4096x256.rank) ∈ dot_S256x256_S4096x256_S256x4096_1_1_0_0_n_n.rhsBatch by decide), dif_pos (show (0 : Fin S4096x256.rank) ∈ dot_S256x256_S4096x256_S256x4096_1_1_0_0_n_n.rhsNonContracting by decide)]
  rfl
/-- … its column the contraction position. -/
theorem rhs_acc_1 (i : S256x4096.Idx) (q : dot_S256x256_S4096x256_S256x4096_1_1_0_0_n_n.contr.Idx) :
    (dot_S256x256_S4096x256_S256x4096_1_1_0_0_n_n.rhsIdx i q 1).val = (q ⟨0, by decide⟩).val :=
  dot_S256x256_S4096x256_S256x4096_1_1_0_0_n_n.rhsIdx_val_of_single rfl i q

/-- Into the zero accumulator the product's entry (r, d) is Σ_e A(r, e) · B(d, e). -/
theorem matmul_at (A : FVec Ideal S256x256 .bf16) (B : FVec Ideal S4096x256 .bf16) (r : Fin 256) (d : Fin 4096) :
    matmul dot_S256x256_S4096x256_S256x4096_1_1_0_0_n_n none A B (constant (F := Ideal) S256x4096 .f32 0x00000000#32) (ix2 r d)
      = ∑ e : Fin 256, A (ix2 r e) * B (ix2 d e) := by
  refine (Ideal.matmul_constant_zero_apply dot_S256x256_S4096x256_S256x4096_1_1_0_0_n_n none A B (ix2 r d)).trans ?_
  rw [← Equiv.sum_comp (contrEquiv1 dot_S256x256_S4096x256_S256x4096_1_1_0_0_n_n 256 rfl rfl).symm]
  refine Finset.sum_congr rfl fun k _ => ?_
  have hk := contrEquiv1_symm_val dot_S256x256_S4096x256_S256x4096_1_1_0_0_n_n 256 rfl rfl k
  have el : dot_S256x256_S4096x256_S256x4096_1_1_0_0_n_n.lhsIdx (ix2 r d) ((contrEquiv1 dot_S256x256_S4096x256_S256x4096_1_1_0_0_n_n 256 rfl rfl).symm k) = ix2 r k := funext fun a => Fin.ext (by
    match a with
    | ⟨0, _⟩ => exact lhs_acc_0 _ _
    | ⟨1, _⟩ => exact (lhs_acc_1 _ _).trans hk)
  have er : dot_S256x256_S4096x256_S256x4096_1_1_0_0_n_n.rhsIdx (ix2 r d) ((contrEquiv1 dot_S256x256_S4096x256_S256x4096_1_1_0_0_n_n 256 rfl rfl).symm k) = ix2 d k := funext fun a => Fin.ext (by
    match a with
    | ⟨0, _⟩ => exact rhs_acc_0 _ _
    | ⟨1, _⟩ => exact (rhs_acc_1 _ _).trans hk)
  rw [el, er]

/-! ## The dequantized block at an entry -/

/-- Joining two 128-column blocks side by side: column e reads the first block below 128, the second from 128 on, at column e mod 128. -/
theorem cat_at (a b : IVec S4096x128 32) (d : Fin 4096) (e : Fin 256) :
    concatenate S4096x256 1 [⟨S4096x128, a⟩, ⟨S4096x128, b⟩] concatenates_S4096x128_S4096x128_S4096x256_d1 (ix2 d e)
      = if e.val / 128 = 0 then a (ix2 d (⟨e.val % 128, Nat.mod_lt _ (by decide)⟩ : Fin 128))
        else b (ix2 d (⟨e.val % 128, Nat.mod_lt _ (by decide)⟩ : Fin 128)) := by
  have he := e.isLt
  by_cases hlt : e.val < 128
  · rw [if_pos (by omega)]
    exact concatenate_pair_apply_left (t := S4096x256) (s₁ := S4096x128) (s₂ := S4096x128) (1 : Fin S4096x256.rank) a b _
      (ix2 d e) rfl (ix2 d (⟨e.val % 128, Nat.mod_lt _ (by decide)⟩ : Fin 128))
      (fun c => by
        match c with
        | ⟨0, _⟩ => rfl
        | ⟨1, _⟩ => show e.val % 128 = e.val; omega)
  · rw [if_neg (by omega)]
    exact concatenate_pair_apply_right (t := S4096x256) (s₁ := S4096x128) (s₂ := S4096x128) (1 : Fin S4096x256.rank) a b _
      (ix2 d e) rfl rfl (ix2 d (⟨e.val % 128, Nat.mod_lt _ (by decide)⟩ : Fin 128))
      (fun c hc => by
        match c with
        | ⟨0, _⟩ => rfl
        | ⟨1, _⟩ => exact absurd rfl hc)
      (by show e.val % 128 + 128 = e.val; omega)

/-- The scale column spread over the block's 256 columns reads the row's scale. -/
theorem scale_at (v38 : Vec Ideal S4096x1 .f32) (d : Fin 4096) (e : Fin 256) :
    broadcastTo S4096x256 v38 broadcasts_S4096x1_S4096x256 (ix2 d e) = v38 (ix2 d (0 : Fin 1)) :=
  broadcastTo_apply v38 broadcasts_S4096x1_S4096x256 (ix2 d e) (ix2 d (0 : Fin 1)) (fun a => by
    match a with
    | ⟨0, _⟩ => show d.val = if (4096 : Nat) = 1 then 0 else d.val; rw [if_neg (by decide)]
    | ⟨1, _⟩ => show 0 = if (1 : Nat) = 1 then 0 else e.val; rw [if_pos rfl])

/-- The block dequantized the body's way is `cat2`. -/
theorem deq_at (v37 : Vec Ideal S4096x128 .i32) (v38 : Vec Ideal S4096x1 .f32) (d : Fin 4096) (e : Fin 256) :
    (truncf .bf16 (mulf (sitofp (F := Ideal) .f32 (concatenate S4096x256 1
        [⟨S4096x128, subi (shrsi v37 (broadcast S4096x128 4#32)) (broadcast S4096x128 8#32)⟩,
         ⟨S4096x128, subi (andi v37 (broadcast S4096x128 15#32)) (broadcast S4096x128 8#32)⟩]
        concatenates_S4096x128_S4096x128_S4096x256_d1))
      (broadcastTo S4096x256 v38 broadcasts_S4096x1_S4096x256)) bitsLt_bf16_f32 : FVec Ideal S4096x256 .bf16) (ix2 d e)
      = cat2 v37 v38 d e := by
  rw [truncf_apply, mulf_apply, sitofp_apply, cat_at, scale_at]
  unfold cat2 nib hiW loW
  by_cases h0 : e.val / 128 = 0
  · rw [if_pos h0, if_pos h0]
    show FloatOps.sitofp .f32 (IntOp.subi (IntOp.shrsi .vector (v37 _) 4#32) 8#32) * _ = _
    rw [shrsi_four]
  · rw [if_neg h0, if_neg h0]
    rfl

/-- The accumulation step: entry (r, d) is what the scratch held plus row r of the activation block against row d of the dequantized second-layer block. -/
theorem accum_apply (v36 : FVec Ideal S256x256 .bf16) (v37 : Vec Ideal S4096x128 .i32) (v38 : Vec Ideal S4096x1 .f32)
    (v53 : Vec Ideal S256x4096 .f32) (r : Fin 256) (d : Fin 4096) :
    k0_pay1 (F := Ideal) v36 v37 v38 v53 (ix2 r d) = v53 (ix2 r d) + ∑ e : Fin 256, v36 (ix2 r e) * cat2 v37 v38 d e := by
  unfold k0_pay1
  refine (congrFun (shapeCast_self _ _) (ix2 r d)).trans ?_
  refine congrArg (v53 (ix2 r d) + ·) ?_
  refine (matmul_at v36 _ r d).trans ?_
  refine Finset.sum_congr rfl fun e _ => ?_
  exact congrArg (v36 (ix2 r e) * ·) (deq_at v37 v38 d e)

end QuantMlp.Body

end
-- ==== Proof.Accum.lean ====
/-
  The accumulator over a run of the hidden axis, and the result array.

  Grid point n = 64·q + s works on token block q and hidden block s. Its CONTRIBUTION to the accumulator of token block q
  is, at in-block entry (r, d), Σ_e act(r, e) · W2blk(d, e): the activation block of the point (gelu of the token block
  against the dequantized first-layer block) against the dequantized second-layer block. The accumulator is reset at
  s = 0 and each point adds its contribution, so after point 64·q + s it holds the sum of the contributions of points
  64·q … 64·q + s; at s = 63 the output block q is a copy of it and is written back. The 16 written blocks tile the
  4096 × 4096 result.
-/
import proofs.«429706_j59657095741907_2_alg».proof.Proof.Gen.KernelIdeal.Value
import proofs.«429706_j59657095741907_2_alg».proof.Proof.Pieces
import proofs.«429706_j59657095741907_2_alg».proof.Proof.PayloadAccum
import Idealize.ShloMosaic.Lib.Pipeline.Value
import Idealize.ShloMosaic.Lib.ValueIdx

noncomputable section

namespace QuantMlp.Accum

open Cert.KernelIdeal Cert.KernelIdeal.Gen Cert.KernelIdeal.Value Idealize.ShloMosaic Idealize.ShloMosaic.TcCoe
open Idealize.ShloMosaic.ValueIdx Idealize.SL.Sem QuantMlp
open Idealize.ShloMosaic.Pipeline (Dat)

variable (m : (ℓ : Loc nD τ sig) → Buf (Elt Ideal) ℓ) (ρ : Dev nD → PrngReg)

/-! ## The input blocks of a point, by their literal types -/

/-- The token block (256 tokens × 4096 columns, columns in the concatenated order). -/
abbrev xblk (c : Dev nD) (t : Fin cfg0.N) : Vec Ideal S256x4096 .bf16 := iblk m c 0 t
/-- The first layer's packed block (256 hidden rows × 2048 words) and its scales. -/
abbrev pblk1 (c : Dev nD) (t : Fin cfg0.N) : Vec Ideal S256x2048 .i32 := iblk m c 1 t
abbrev sblk1 (c : Dev nD) (t : Fin cfg0.N) : Vec Ideal S256x1 .f32 := iblk m c 2 t
/-- The second layer's packed block (4096 model rows × 128 words) and its scales. -/
abbrev pblk2 (c : Dev nD) (t : Fin cfg0.N) : Vec Ideal S4096x128 .i32 := iblk m c 3 t
abbrev sblk2 (c : Dev nD) (t : Fin cfg0.N) : Vec Ideal S4096x1 .f32 := iblk m c 4 t

/-- The contribution of grid point n (zero past the grid, where it is never used). -/
def contrib (c : Dev nD) (n : ℕ) : S256x4096.Idx → EReal := fun i =>
  if h : n < cfg0.N then
    ∑ e : Fin 256, k0_pay3 (F := Ideal) (xblk m c ⟨n, h⟩) (pblk1 m c ⟨n, h⟩) (sblk1 m c ⟨n, h⟩) (ix2 (i 0) e)
      * cat2 (pblk2 m c ⟨n, h⟩) (sblk2 m c ⟨n, h⟩) (i 1) e
  else 0

/-! ## One point's step at an entry -/

theorem step_apply (x0 : Vec Ideal S256x4096 .bf16) (x1 : Vec Ideal S256x2048 .i32) (x2 : Vec Ideal S256x1 .f32)
    (x3 : Vec Ideal S4096x128 .i32) (x4 : Vec Ideal S4096x1 .f32) (acc : Vec Ideal S256x4096 .f32) (i : S256x4096.Idx) :
    Pieces.step (F := Ideal) x0 x1 x2 x3 x4 acc i
      = acc i + ∑ e : Fin 256, k0_pay3 (F := Ideal) x0 x1 x2 (ix2 (i 0) e) * cat2 x3 x4 (i 1) e := by
  obtain ⟨r, d, rfl⟩ : ∃ (r : Fin 256) (d : Fin 4096), i = ix2 r d := ⟨i 0, i 1, eq_ix2 i⟩
  exact Body.accum_apply (k0_pay3 (F := Ideal) x0 x1 x2) x3 x4 acc r d

/-- At the first point of a run the accumulator ends at the point's contribution alone. -/
theorem scAt_reset (c : Dev nD) (n : ℕ) (h : n < cfg0.N) (h0 : n % 64 = 0) (acc : Vec Ideal S256x4096 .f32)
    (i : S256x4096.Idx) : scAt0_0 m c n h acc i = 0 + contrib m c n i := by
  have h1 : ¬n % 64 = 63 := by omega
  unfold scAt0_0
  rw [dif_pos h0, dif_neg h1]
  refine (congrFun (Pieces.scratch_A (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) ((hcond0_0 (⟨n, h⟩ : Fin cfg0.N)).mpr h0) (fun hh => h1 ((hcond0_1 (⟨n, h⟩ : Fin cfg0.N)).mp hh)) (xblk m c ⟨n, h⟩) (pblk1 m c ⟨n, h⟩) (sblk1 m c ⟨n, h⟩) (pblk2 m c ⟨n, h⟩) (sblk2 m c ⟨n, h⟩)) i).trans ?_
  refine (step_apply (xblk m c ⟨n, h⟩) (pblk1 m c ⟨n, h⟩) (sblk1 m c ⟨n, h⟩) (pblk2 m c ⟨n, h⟩) (sblk2 m c ⟨n, h⟩) _ i).trans ?_
  rw [Body.zero_apply]
  unfold contrib
  rw [dif_pos h]

/-- At every other point it ends at what it held plus the point's contribution. -/
theorem scAt_step (c : Dev nD) (n : ℕ) (h : n < cfg0.N) (h0 : ¬n % 64 = 0) (acc : Vec Ideal S256x4096 .f32)
    (i : S256x4096.Idx) : scAt0_0 m c n h acc i = acc i + contrib m c n i := by
  unfold scAt0_0
  rw [dif_neg h0]
  by_cases h1 : n % 64 = 63
  · rw [dif_pos h1]
    refine (congrFun (Pieces.scratch_C (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (xblk m c ⟨n, h⟩) (pblk1 m c ⟨n, h⟩) (sblk1 m c ⟨n, h⟩) (pblk2 m c ⟨n, h⟩) (sblk2 m c ⟨n, h⟩) acc) i).trans ?_
    refine (step_apply (xblk m c ⟨n, h⟩) (pblk1 m c ⟨n, h⟩) (sblk1 m c ⟨n, h⟩) (pblk2 m c ⟨n, h⟩) (sblk2 m c ⟨n, h⟩) acc i).trans ?_
    unfold contrib
    rw [dif_pos h]
  · rw [dif_neg h1]
    refine (congrFun (Pieces.scratch_B (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (xblk m c ⟨n, h⟩) (pblk1 m c ⟨n, h⟩) (sblk1 m c ⟨n, h⟩) (pblk2 m c ⟨n, h⟩) (sblk2 m c ⟨n, h⟩) acc) i).trans ?_
    refine (step_apply (xblk m c ⟨n, h⟩) (pblk1 m c ⟨n, h⟩) (sblk1 m c ⟨n, h⟩) (pblk2 m c ⟨n, h⟩) (sblk2 m c ⟨n, h⟩) acc i).trans ?_
    unfold contrib
    rw [dif_pos h]

/-! ## The accumulator after a point -/

/-- After point t the accumulator holds the contributions of its run's points up to t. -/
theorem scratch_after (c : Dev nD) (t : Fin cfg0.N) (i : S256x4096.Idx) :
    (outsAt0 m c t.val t.isLt).2 i
      = ∑ s ∈ Finset.range (t.val % 64 + 1), contrib m c (64 * (t.val / 64) + s) i := by
  rw [soutsAt0_0_eq m c t]
  have hN : cfg0.N = 1024 := N_0
  have key := Pipeline.accAt_add_apply (N := cfg0.N) (ι := S256x4096.Idx) (β := EReal)
    (fun n h => scAt0_0 m c n h (VS0_0.read (Elt Ideal) VS0_0.junk)) (scAt0_0 m c) (fun _ => 0) (contrib m c)
    (64 * (t.val / 64)) 63
    (fun h i => scAt_reset m c _ h (by omega) _ i)
    (fun n h acc i hb he => scAt_step m c n h (by omega) acc i)
    (t.val % 64) (by omega) (by have := t.isLt; omega) i
  rw [key, zero_add]

/-- At the last point of a run the output block is the accumulator. -/
theorem out_eq_scratch (c : Dev nD) (t : Fin cfg0.N) (h1 : t.val % 64 = 63) :
    (outsAt0 m c t.val t.isLt).1 = (outsAt0 m c t.val t.isLt).2 := by
  have h0 : ¬t.val % 64 = 0 := by omega
  rw [outsAt0_C m c t h0 h1]
  dsimp only
  exact (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (xblk m c t) (pblk1 m c t) (sblk1 m c t) (pblk2 m c t) (sblk2 m c t) _).trans
    (Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (xblk m c t) (pblk1 m c t) (sblk1 m c t) (pblk2 m c t) (sblk2 m c t) _).symm

/-! ## The result array -/

/-- The result: entry (n, d) is the sum over the 64 hidden blocks of the contributions of token block ⌊n / 256⌋'s points
    at in-block entry (n mod 256, d). -/
def Out (c : Dev nD) : S4096x4096.Idx → EReal := fun i =>
  ∑ s ∈ Finset.range 64, contrib m c (64 * ((i 0).val / 256) + s)
    (ix2 (⟨(i 0).val % 256, Nat.mod_lt _ (by decide)⟩ : Fin 256) (i 1))

/-- The output window's block index at a point: the token block, and column block 0. -/
theorem idx5 : ∀ t : Fin cfg0.N, win0_5.index t (0 : Fin 2) = t.val / 64 ∧ win0_5.index t (1 : Fin 2) = 0 :=
  (by decide +kernel : ∀ t : Fin grid0.N, _)

/-- What a writing point writes back is its block of `Out`. -/
theorem flushed_eq (c : Dev nD) (t : Fin cfg0.N) (hf : (cfg0.win 5).flush t = true) :
    (dats m 0 c).flushed 5 t = ((cfg0.win 5).blk t).view.read (Elt Ideal) (Out m c) := by
  have h1 : t.val % 64 = 63 := (flush0_5 t).mp hf
  have hN : t.val < 1024 := lt_of_lt_of_eq t.isLt (show cfg0.N = 1024 from N_0)
  rw [flushed5]
  funext j
  show (outsAt0 m c t.val t.isLt).1 j = Out m c (((cfg0.win 5).blk t).view.emb j)
  rw [out_eq_scratch m c t h1, scratch_after m c t j, h1]
  have hj0 : (j 0).val < 256 := (j 0).isLt
  have e0 : ((((cfg0.win 5).blk t).view.emb j) 0).val = t.val / 64 * 256 + (j 0).val := by
    show win0_5.index t (0 : Fin 2) * 256 + 1 * (j 0).val = _
    rw [(idx5 t).1]; omega
  have e1 : ((((cfg0.win 5).blk t).view.emb j) 1).val = (j 1).val := by
    show win0_5.index t (1 : Fin 2) * 4096 + 1 * (j 1).val = _
    rw [(idx5 t).2]; omega
  unfold Out
  refine Finset.sum_congr rfl fun s _ => ?_
  refine congrArg₂ (contrib m c) (by rw [e0]; omega) ?_
  funext a; apply Fin.ext
  match a with
  | ⟨0, _⟩ => show (j 0).val = ((((cfg0.win 5).blk t).view.emb j) 0).val % 256; rw [e0]; omega
  | ⟨1, _⟩ => show (j 1).val = ((((cfg0.win 5).blk t).view.emb j) 1).val; rw [e1]

/-- An index is in a point's output block iff each coordinate is in the block's range. -/
theorem mem_blk5 (t : Fin cfg0.N) (i : S4096x4096.Idx) :
    i ∈ ((cfg0.win 5).blk t).view.set ↔ ∀ a : Fin 2, win0_5.index t a * S256x4096.size a ≤ (i a).val
      ∧ (i a).val < win0_5.index t a * S256x4096.size a + S256x4096.size a := by
  show i ∈ ((View.whole main_v53).slice (win0_5.rect t)).set ↔ _
  rw [View.set_slice_whole, Rect.mem_set_unit]
  exact Iff.rfl

/-- Every entry of the result lies in the block written at the last point of its token block's run. -/
theorem cover (i : S4096x4096.Idx) :
    ∃ t : Fin cfg0.N, (cfg0.win 5).flush t = true ∧ i ∈ ((cfg0.win 5).blk t).view.set := by
  have hi0 : (i 0).val < 4096 := (i 0).isLt
  have hi1 : (i 1).val < 4096 := (i 1).isLt
  have hN : cfg0.N = 1024 := N_0
  refine ⟨⟨64 * ((i 0).val / 256) + 63, by omega⟩, (flush0_5 _).mpr (by dsimp only; omega), ?_⟩
  rw [mem_blk5]
  intro a
  match a with
  | ⟨0, _⟩ =>
    show win0_5.index _ (0 : Fin 2) * 256 ≤ (i 0).val ∧ (i 0).val < win0_5.index _ (0 : Fin 2) * 256 + 256
    rw [(idx5 _).1]; dsimp only; omega
  | ⟨1, _⟩ =>
    show win0_5.index _ (1 : Fin 2) * 4096 ≤ (i 1).val ∧ (i 1).val < win0_5.index _ (1 : Fin 2) * 4096 + 4096
    rw [(idx5 _).2]; omega

/-- The result array after the run. -/
theorem final (c : Dev nD) : (dats m 0 c).arrAt 5 cfg0.N = Out m c :=
  (dats m 0 c).arrAt_eq_of_cover 5 (Out m c) (flushed_eq m c) cover

/-- The run, read: the result array at `Out`, the five arguments unchanged. -/
theorem run : θ_run defs (onTc (τ := τ) (main (F := Ideal))) ⟨m, fun _ => 0, ρ⟩ fun r => ∀ c : Dev nD,
      r.2.mem ((c : Thread nD τ).loc main_v53) = Out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end QuantMlp.Accum

end
-- ==== Proof.Payloads.lean ====
/-
  The body's arithmetic at an entry, at the ideal values.
-/
import proofs.«429706_j59657095741907_2_alg».proof.Proof.Gen.KernelIdeal.Skeleton
import proofs.«429706_j59657095741907_2_alg».proof.Proof.Spec
import Idealize.ShloMosaic.PureOps.Ideal.Laws
import Idealize.ShloMosaic.Lib.ValueIdx
import Idealize.ShloMosaic.Lib.Pipeline.Value

noncomputable section

namespace QuantMlp.Body

open Cert.KernelIdeal Cert.KernelIdeal.Gen Idealize.ShloMosaic Idealize.ShloMosaic.ValueIdx QuantMlp

/-! ## The two contractions at an entry

Both contract axis 1 of both operands and keep axis 0: entry (r, c) of the product reads the left operand along row r
and the right operand along row c. -/

theorem lhs_mm1_0 (i : S256x256.Idx) (q : dot_S256x4096_S256x4096_S256x256_1_1_0_0_n_n.contr.Idx) :
    (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl
theorem lhs_mm1_1 (i : S256x256.Idx) (q : dot_S256x4096_S256x4096_S256x256_1_1_0_0_n_n.contr.Idx) :
    (dot_S256x4096_S256x4096_S256x256_1_1_0_0_n_n.lhsIdx i q 1).val = (q ⟨0, by decide⟩).val :=
  dot_S256x4096_S256x4096_S256x256_1_1_0_0_n_n.lhsIdx_val_of_single rfl i q
theorem rhs_mm1_0 (i : S256x256.Idx) (q : dot_S256x4096_S256x4096_S256x256_1_1_0_0_n_n.contr.Idx) :
    (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl
theorem rhs_mm1_1 (i : S256x256.Idx) (q : dot_S256x4096_S256x4096_S256x256_1_1_0_0_n_n.contr.Idx) :
    (dot_S256x4096_S256x4096_S256x256_1_1_0_0_n_n.rhsIdx i q 1).val = (q ⟨0, by decide⟩).val :=
  dot_S256x4096_S256x4096_S256x256_1_1_0_0_n_n.rhsIdx_val_of_single rfl i q

/-- The first product into the zero block: entry (r, j) is row r of the left operand against row j of the right one. -/
theorem matmul1_apply (A B : FVec Ideal S256x4096 .bf16) (r j : Fin 256) :
    matmul (F := Ideal) dot_S256x4096_S256x4096_S256x256_1_1_0_0_n_n none A B (constant S256x256 .f32 0x00000000#32) (ix2 r j)
      = ∑ e : Fin 4096, A (ix2 r e) * B (ix2 j e) := by
  simp only [matmul]
  rw [Ideal.matmul_constant_zero_apply, ← Equiv.sum_comp (ValueIdx.contrEquiv1 dot_S256x4096_S256x4096_S256x256_1_1_0_0_n_n 4096 rfl rfl).symm]
  refine Finset.sum_congr rfl fun k _ => ?_
  have hk := ValueIdx.contrEquiv1_symm_val dot_S256x4096_S256x4096_S256x256_1_1_0_0_n_n 4096 rfl rfl k
  have el : dot_S256x4096_S256x4096_S256x256_1_1_0_0_n_n.lhsIdx (ix2 r j) ((ValueIdx.contrEquiv1 dot_S256x4096_S256x4096_S256x256_1_1_0_0_n_n 4096 rfl rfl).symm k) = ix2 r k := funext fun a => Fin.ext (by
    match a with
    | ⟨0, _⟩ => exact lhs_mm1_0 _ _
    | ⟨1, _⟩ => exact (lhs_mm1_1 _ _).trans hk)
  have er : dot_S256x4096_S256x4096_S256x256_1_1_0_0_n_n.rhsIdx (ix2 r j) ((ValueIdx.contrEquiv1 dot_S256x4096_S256x4096_S256x256_1_1_0_0_n_n 4096 rfl rfl).symm k) = ix2 j k := funext fun a => Fin.ext (by
    match a with
    | ⟨0, _⟩ => exact rhs_mm1_0 _ _
    | ⟨1, _⟩ => exact (rhs_mm1_1 _ _).trans hk)
  rw [el, er]

/-! ## The dequantized first-layer block at an entry -/

/-- The two nibble planes side by side, read at row j, position e: below 2048 the first plane, from 2048 on the second,
    each at packed column e mod 2048. -/
theorem concat1_apply (A B : IVec S256x2048 32) (j : Fin 256) (e : Fin 4096) :
    concatenate S256x4096 1 [⟨S256x2048, A⟩, ⟨S256x2048, B⟩] concatenates_S256x2048_S256x2048_S256x4096_d1 (ix2 j e)
      = if e.val / 2048 = 0 then A (ix2 j (⟨e.val % 2048, Nat.mod_lt _ (by decide)⟩ : Fin 2048))
        else B (ix2 j (⟨e.val % 2048, Nat.mod_lt _ (by decide)⟩ : Fin 2048)) := by
  by_cases h : e.val < 2048
  · rw [if_pos (Nat.div_eq_of_lt h)]
    refine concatenate_pair_apply_left 1 A B _ (ix2 j e) rfl _ fun b => ?_
    match b with
    | ⟨0, _⟩ => rfl
    | ⟨1, _⟩ => exact Nat.mod_eq_of_lt h
  · have h1 : 2048 ≤ e.val := Nat.le_of_not_lt h
    have hd : e.val / 2048 = 1 := Nat.div_eq_of_lt_le (by rw [Nat.one_mul]; exact h1) (show e.val < (1 + 1) * 2048 from e.isLt)
    rw [if_neg (by rw [hd]; decide)]
    refine concatenate_pair_apply_right 1 A B _ (ix2 j e) rfl rfl _ (fun b hb => ?_) ?_
    · match b, hb with
      | ⟨0, _⟩, _ => rfl
      | ⟨1, _⟩, hb => exact absurd rfl hb
    · show e.val % 2048 + 2048 = e.val
      have := Nat.mod_add_div e.val 2048
      rw [hd, Nat.mul_one] at this
      exact this

/-- A column of scales spread over the 4096 positions of its row reads the row's scale. -/
theorem bcol1_apply {α : Type} (s : S256x1.Idx → α) (j : Fin 256) (e : Fin 4096) :
    broadcastTo S256x4096 s broadcasts_S256x1_S256x4096 (ix2 j e) = s (ix2 j (0 : Fin 1)) := by
  refine broadcastTo_apply s _ (ix2 j e) (ix2 j (0 : Fin 1)) fun ax => ?_
  match ax with
  | ⟨0, _⟩ => show j.val = if (256 : Nat) = 1 then 0 else j.val; rfl
  | ⟨1, _⟩ => show (0 : Nat) = if (1 : Nat) = 1 then 0 else e.val; rfl

/-- The first layer's block as the body dequantizes it: both nibble planes of the packed block, the high one first,
    converted and scaled row by row. -/
def deq1 (p : IVec S256x2048 32) (s : FVec Ideal S256x1 .f32) : FVec Ideal S256x4096 .bf16 :=
  truncf .bf16 (mulf (sitofp .f32 (concatenate S256x4096 1
      [⟨S256x2048, subi (shrsi p (broadcast S256x2048 4#32)) (broadcast S256x2048 8#32)⟩,
       ⟨S256x2048, subi (andi p (broadcast S256x2048 15#32)) (broadcast S256x2048 8#32)⟩]
      concatenates_S256x2048_S256x2048_S256x4096_d1))
    (broadcastTo S256x4096 s broadcasts_S256x1_S256x4096)) bitsLt_bf16_f32

/-- At row j, position e it is the weight of the nibble the concatenated order puts there, times the row's scale. -/
theorem deq1_apply (p : IVec S256x2048 32) (s : FVec Ideal S256x1 .f32) (j : Fin 256) (e : Fin 4096) :
    deq1 p s (ix2 j e) = cat1 p s j e := by
  show FloatOps.sitofp (F := Ideal) .f32 (concatenate S256x4096 1
      [⟨S256x2048, subi (shrsi p (broadcast S256x2048 4#32)) (broadcast S256x2048 8#32)⟩,
       ⟨S256x2048, subi (andi p (broadcast S256x2048 15#32)) (broadcast S256x2048 8#32)⟩]
      concatenates_S256x2048_S256x2048_S256x4096_d1 (ix2 j e))
    * broadcastTo S256x4096 s broadcasts_S256x1_S256x4096 (ix2 j e) = _
  rw [concat1_apply, bcol1_apply]
  unfold cat1 nib hiW loW
  refine congrArg (· * s (ix2 j (0 : Fin 1))) (congrArg (FloatOps.sitofp (F := Ideal) .f32) ?_)
  by_cases h : e.val / 2048 = 0
  · rw [if_pos h, if_pos h]
    show IntOp.subi (IntOp.shrsi .vector _ 4#32) 8#32 = _
    rw [shrsi_four]
  · rw [if_neg h, if_neg h]
    rfl

/-! ## The activation -/

/-- The body's activation of a block, in its own order of operations. -/
def act (v : FVec Ideal S256x256 .f32) : FVec Ideal S256x256 .bf16 :=
  truncf .bf16 (mulf v (mulf (broadcast S256x256 (Scalar.ofBits .f32 0x3F000000#32))
    (addf (broadcast S256x256 (Scalar.ofBits .f32 0x3F800000#32))
      (tanh (mulf (broadcast S256x256 (Scalar.ofBits .f32 0x3F4C422A#32))
        (addf v (mulf (broadcast S256x256 (Scalar.ofBits .f32 0x3D372713#32)) (mulf v (mulf v v))))))))) bitsLt_bf16_f32

/-- Entry by entry it is gelu. -/
theorem act_apply (v : FVec Ideal S256x256 .f32) (i : S256x256.Idx) : act v i = gelu (v i) := rfl

/-- The activation block: entry (r, j) is gelu of the row r of the token block against row j of the dequantized first-layer block. -/
theorem hidden_apply (x0 : Vec Ideal S256x4096 .bf16) (x1 : Vec Ideal S256x2048 .i32) (x2 : Vec Ideal S256x1 .f32)
    (r j : Fin 256) :
    k0_pay3 (F := Ideal) x0 x1 x2 (ix2 r j) = gelu (∑ e : Fin 4096, x0 (ix2 r e) * cat1 x1 x2 j e) := by
  have h0 : k0_pay3 (F := Ideal) x0 x1 x2
      = act (matmul (F := Ideal) dot_S256x4096_S256x4096_S256x256_1_1_0_0_n_n none
          (shapeCast S256x4096 x0 shapeCasts_S256x4096_S256x4096)
          (deq1 (shapeCast S256x2048 x1 shapeCasts_S256x2048_S256x2048) (shapeCast S256x1 x2 shapeCasts_S256x1_S256x1))
          (constant S256x256 .f32 0x00000000#32)) := rfl
  rw [h0, act_apply, shapeCast_self, shapeCast_self, shapeCast_self]
  refine congrArg gelu ((matmul1_apply _ _ r j).trans ?_)
  exact Finset.sum_congr rfl fun e _ => congrArg (x0 (ix2 r e) * ·) (deq1_apply x1 x2 j e)

end QuantMlp.Body

end
-- ==== Proof.SumOrder.lean ====
/-
  Reordering the two contractions: the concatenated order is a permutation, and the hidden axis splits into 64 blocks of 256.
-/
import proofs.«429706_j59657095741907_2_alg».proof.Proof.Spec
import Mathlib.Algebra.BigOperators.Fin
import Mathlib.Data.Fintype.BigOperators

noncomputable section

namespace QuantMlp

/-! ## The arithmetic of the concatenated order, over plain naturals -/

/-- A position a = n·qa + ra with qa < 2 is recovered from the column 2·ra + qa: the column's parity is qa and its half is ra. -/
theorem unzip_aux (n a b qa qb ra rb : Nat) (h1 : qa < 2) (h2 : qb < 2) (h3 : n * qa + ra = a) (h4 : n * qb + rb = b)
    (hv : 2 * ra + qa = 2 * rb + qb) : a = b := by
  have e1 : qa = qb := by clear h3 h4; omega
  have e2 : ra = rb := by clear h3 h4; omega
  rw [← h3, ← h4, e1, e2]

/-- A hidden unit q·256 + p with p < 256 determines the block q and the in-block column p. -/
theorem block_aux (q q' p p' : Nat) (hp : p < 256) (hp' : p' < 256) (h : q * 256 + p = q' * 256 + p') : q = q' ∧ p = p' := by
  constructor <;> omega

theorem permD_val (e : Fin 4096) : (permD e).val = 2 * (e.val % 2048) + e.val / 2048 := rfl
theorem permL_val (e : Fin 256) : (permL e).val = 2 * (e.val % 128) + e.val / 128 := rfl
theorem blockH_val (q : Fin 64) (j : Fin 256) : (blockH q j).val = q.val * 256 + (permL j).val := rfl

/-- The wrapper's order of x's columns never sends two positions to one column. -/
theorem permD_injective : Function.Injective permD := by
  intro a b h
  have hv : (permD a).val = (permD b).val := congrArg Fin.val h
  rw [permD_val, permD_val] at hv
  exact Fin.ext (unzip_aux 2048 a.val b.val (a.val / 2048) (b.val / 2048) (a.val % 2048) (b.val % 2048)
    (Nat.div_lt_of_lt_mul (show a.val < 2048 * 2 from a.isLt)) (Nat.div_lt_of_lt_mul (show b.val < 2048 * 2 from b.isLt))
    (Nat.div_add_mod a.val 2048) (Nat.div_add_mod b.val 2048) hv)

/-- Nor does the order inside a block of the hidden axis. -/
theorem permL_injective : Function.Injective permL := by
  intro a b h
  have hv : (permL a).val = (permL b).val := congrArg Fin.val h
  rw [permL_val, permL_val] at hv
  exact Fin.ext (unzip_aux 128 a.val b.val (a.val / 128) (b.val / 128) (a.val % 128) (b.val % 128)
    (Nat.div_lt_of_lt_mul (show a.val < 128 * 2 from a.isLt)) (Nat.div_lt_of_lt_mul (show b.val < 128 * 2 from b.isLt))
    (Nat.div_add_mod a.val 128) (Nat.div_add_mod b.val 128) hv)

/-- The pair (block, in-block position) is recovered from the hidden unit. -/
theorem blockH_injective : Function.Injective (fun p : Fin 64 × Fin 256 => blockH p.1 p.2) := by
  rintro ⟨q, j⟩ ⟨q', j'⟩ h
  have hv : (blockH q j).val = (blockH q' j').val := congrArg Fin.val h
  rw [blockH_val, blockH_val] at hv
  obtain ⟨h1, h2⟩ := block_aux q.val q'.val (permL j).val (permL j').val (permL j).isLt (permL j').isLt hv
  exact Prod.ext (Fin.ext h1) (permL_injective (Fin.ext h2))

/-- Summing over the model axis in the wrapper's order of x's columns is summing over it. -/
theorem sum_permD {M : Type*} [AddCommMonoid M] (g : Fin 4096 → M) : ∑ e : Fin 4096, g (permD e) = ∑ e : Fin 4096, g e :=
  Function.Bijective.sum_comp (Finite.injective_iff_bijective.mp permD_injective) g

/-- Summing block by block, inside each block in the wrapper's order, is summing over the hidden axis. -/
theorem sum_blockH {M : Type*} [AddCommMonoid M] (f : Fin 16384 → M) :
    ∑ q : Fin 64, ∑ j : Fin 256, f (blockH q j) = ∑ h : Fin 16384, f h := by
  have hcard : Fintype.card (Fin 64 × Fin 256) = Fintype.card (Fin 16384) := by
    rw [Fintype.card_prod, Fintype.card_fin, Fintype.card_fin, Fintype.card_fin]
  have hbij : Function.Bijective (fun p : Fin 64 × Fin 256 => blockH p.1 p.2) :=
    (Fintype.bijective_iff_injective_and_card _).mpr ⟨blockH_injective, hcard⟩
  exact (Fintype.sum_prod_type' (fun q j => f (blockH q j))).symm.trans
    (Function.Bijective.sum_comp hbij f)

/-- The packed column and the nibble of the original column at position e of the model axis. -/
theorem half_permD (e : Fin 4096) : (half (n := 2048) (permD e)).val = e.val % 2048 := by
  have h1 : e.val / 2048 < 2 := Nat.div_lt_of_lt_mul (show e.val < 2048 * 2 from e.isLt)
  show (2 * (e.val % 2048) + e.val / 2048) / 2 = e.val % 2048
  generalize e.val / 2048 = q at h1
  generalize e.val % 2048 = r
  omega
theorem par_permD (e : Fin 4096) : (par (n := 2048) (permD e)).val = e.val / 2048 := by
  have h1 : e.val / 2048 < 2 := Nat.div_lt_of_lt_mul (show e.val < 2048 * 2 from e.isLt)
  show (2 * (e.val % 2048) + e.val / 2048) % 2 = e.val / 2048
  generalize e.val / 2048 = q at h1
  generalize e.val % 2048 = r
  omega
/-- The packed column and the nibble of the hidden unit at position j of block q. -/
theorem half_blockH (q : Fin 64) (j : Fin 256) : (half (n := 8192) (blockH q j)).val = q.val * 128 + j.val % 128 := by
  have h1 : j.val / 128 < 2 := Nat.div_lt_of_lt_mul (show j.val < 128 * 2 from j.isLt)
  show (q.val * 256 + (2 * (j.val % 128) + j.val / 128)) / 2 = q.val * 128 + j.val % 128
  generalize j.val / 128 = c at h1
  generalize j.val % 128 = r
  omega
theorem par_blockH (q : Fin 64) (j : Fin 256) : (par (n := 8192) (blockH q j)).val = j.val / 128 := by
  have h1 : j.val / 128 < 2 := Nat.div_lt_of_lt_mul (show j.val < 128 * 2 from j.isLt)
  show (q.val * 256 + (2 * (j.val % 128) + j.val / 128)) % 2 = j.val / 128
  generalize j.val / 128 = c at h1
  generalize j.val % 128 = r
  omega
/-- The wrapper's row order at row q·256 + j is `blockH q j`. -/
theorem permH_block (q : Fin 64) (j : Fin 256) (h : Fin 16384) (hh : h.val = q.val * 256 + j.val) : permH h = blockH q j := by
  have hj := j.isLt
  have d1 : h.val / 256 = q.val := by
    rw [hh, Nat.mul_comm, Nat.mul_add_div (by decide : 0 < 256), Nat.div_eq_of_lt hj, Nat.add_zero]
  have d2 : h.val % 256 = j.val := by
    rw [hh, Nat.mul_comm, Nat.mul_add_mod, Nat.mod_eq_of_lt hj]
  have e1 : (⟨h.val / 256, by have := h.isLt; omega⟩ : Fin 64) = q := Fin.ext d1
  have e2 : (⟨h.val % 256, Nat.mod_lt _ (by decide)⟩ : Fin 256) = j := Fin.ext d2
  unfold permH
  rw [e1, e2]

end QuantMlp

end
-- ==== Proof.HostPrefix.lean ====
/-
  What the region finds in the three arrays the wrapper gathers before the call: x with its columns in the concatenated
  order, and the first layer's packed rows and scales with their rows in that order inside every 256-row block.

  Each index table is read at a symbolic position: the even numbers then the odd ones (a concatenation of 2·k and 2·k + 1)
  hold at position e the number 2·(e mod n) + ⌊e / n⌋; the rows' table adds block q's first row q·256 and is flattened
  row-major. Every entry is a small non-negative number, so the wrap of negative indices leaves it, and the gather's clamp
  (read signed, cut to the axis) leaves it too. A gather of whole rows (or whole columns) read at an index is the operand at
  the start index's row (column) and the same column (row).
-/
import proofs.«429706_j59657095741907_2_alg».proof.Proof.Gen.KernelIdeal.Frame
import proofs.«429706_j59657095741907_2_alg».proof.Proof.Spec
import Idealize.ShloMosaic.Lib.ValueIdx
import Idealize.ShloMosaic.Lib.Pipeline.Value
import Idealize.ShloMosaic.Lib.StableHlo.Run
import Idealize.ShloMosaic.Lib.StableHlo.Predicate

noncomputable section

namespace QuantMlp.Prefix

open Cert.KernelIdeal Cert.KernelIdeal.Gen Idealize.ShloMosaic Idealize.ShloMosaic.TcCoe Idealize.ShloMosaic.ValueIdx Idealize.SL.Sem QuantMlp

variable (m : (ℓ : Loc nD τ sig) → Buf (Elt Ideal) ℓ)

/-! ## A gather of whole rows, and of whole columns, read at an index -/

section Gathers
variable {α : Type}

/-- The dimension numbers of a gather of ROWS: operand [R × C], start indices an [n × 1] column of row numbers, result
    [n × C]; the row axis collapsed and start-indexed, the column axis the one offset axis. -/
abbrev rowDims (R C n : Nat) (wf : GatherDims.WF ⟨2, ![R, C]⟩ ⟨2, ![n, 1]⟩ ⟨2, ![n, C]⟩ [1] [0] [] [0] [] 1 ![1, C]) :
    GatherDims ⟨2, ![R, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- Row h, column k of a gather of rows: the operand's row at start index h (read signed, clamped into the rows), column k. -/
theorem gather_rows_apply {R C n w : Nat} (hR : 0 < R)
    (wf : GatherDims.WF ⟨2, ![R, C]⟩ ⟨2, ![n, 1]⟩ ⟨2, ![n, C]⟩ [1] [0] [] [0] [] 1 ![1, C])
    (x : (⟨2, ![R, C]⟩ : Shape).Idx → α) (idx : IVec ⟨2, ![n, 1]⟩ w) (h : Fin n) (k : Fin C) :
    Host.gather (rowDims R C n wf) x idx (ix2 h k)
      = x (ix2 ⟨min (idx (ix2 h (0 : Fin 1))).toInt.toNat (R - 1), by omega⟩ k) := by
  unfold Host.gather
  congr 1
  funext a
  refine Fin.ext ?_
  match a with
  | ⟨0, _⟩ =>
    show (rowDims R C n wf).start (ix2 h k) idx 0 + (rowDims R C n wf).batchCoord (ix2 h k) 0
        + (rowDims R C n wf).offCoord (ix2 h k) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowDims R C n wf).startIndexMap from List.mem_singleton.mpr rfl)]
    have hsi : (rowDims R C n wf).siIdx (ix2 h k) ⟨List.idxOf (0 : Fin 2) (rowDims R C n wf).startIndexMap,
        List.idxOf_lt_length_iff.2 (List.mem_singleton.mpr rfl)⟩ = ix2 h (0 : Fin 1) := by
      funext b; refine Fin.ext ?_
      match b with
      | ⟨0, _⟩ => rfl
      | ⟨1, _⟩ => rfl
    rw [hsi]
    rfl
  | ⟨1, _⟩ =>
    show (rowDims R C n wf).start (ix2 h k) idx 1 + (rowDims R C n wf).batchCoord (ix2 h k) 1
        + (rowDims R C n wf).offCoord (ix2 h k) 1 = k.val
    rw [GatherDims.batchCoord_eq_zero _ _ _ List.not_mem_nil]
    unfold GatherDims.start
    rw [dif_neg (show (1 : Fin 2) ∉ (rowDims R C n wf).startIndexMap from (by decide : (1 : Fin 2) ∉ ([0] : List (Fin 2))))]
    simp only [Nat.add_zero, Nat.zero_add]
    rfl

/-- The dimension numbers of a gather of COLUMNS: operand [R × C], start indices an [n × 1] column of column numbers,
    result [R × n]; the column axis collapsed and start-indexed, the row axis the one offset axis. -/
abbrev colDims (R C n : Nat) (wf : GatherDims.WF ⟨2, ![R, C]⟩ ⟨2, ![n, 1]⟩ ⟨2, ![R, n]⟩ [0] [1] [] [1] [] 1 ![R, 1]) :
    GatherDims ⟨2, ![R, C]⟩ ⟨2, ![n, 1]⟩ ⟨2, ![R, n]⟩ where
  offsetDims := [0]
  collapsedSliceDims := [1]
  operandBatchingDims := []
  startIndicesBatchingDims := []
  startIndexMap := [1]
  indexVectorDim := 1
  sliceSizes := ![R, 1]
  wf := wf

/-- Row r, column e of a gather of columns: the operand's row r at the column start index e names (read signed, clamped). -/
theorem gather_cols_apply {R C n w : Nat} (hC : 0 < C)
    (wf : GatherDims.WF ⟨2, ![R, C]⟩ ⟨2, ![n, 1]⟩ ⟨2, ![R, n]⟩ [0] [1] [] [1] [] 1 ![R, 1])
    (x : (⟨2, ![R, C]⟩ : Shape).Idx → α) (idx : IVec ⟨2, ![n, 1]⟩ w) (r : Fin R) (e : Fin n) :
    Host.gather (colDims R C n wf) x idx (ix2 r e)
      = x (ix2 r ⟨min (idx (ix2 e (0 : Fin 1))).toInt.toNat (C - 1), by omega⟩) := by
  unfold Host.gather
  congr 1
  funext a
  refine Fin.ext ?_
  match a with
  | ⟨0, _⟩ =>
    show (colDims R C n wf).start (ix2 r e) idx 0 + (colDims R C n wf).batchCoord (ix2 r e) 0
        + (colDims R C n wf).offCoord (ix2 r e) 0 = r.val
    rw [GatherDims.batchCoord_eq_zero _ _ _ List.not_mem_nil]
    unfold GatherDims.start
    rw [dif_neg (show (0 : Fin 2) ∉ (colDims R C n wf).startIndexMap from (by decide : (0 : Fin 2) ∉ ([1] : List (Fin 2))))]
    simp only [Nat.add_zero, Nat.zero_add]
    rfl
  | ⟨1, _⟩ =>
    show (colDims R C n wf).start (ix2 r e) idx 1 + (colDims R C n wf).batchCoord (ix2 r e) 1
        + (colDims R C n wf).offCoord (ix2 r e) 1 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (1 : Fin 2) ∈ (colDims R C n wf).startIndexMap from List.mem_singleton.mpr rfl)]
    have hsi : (colDims R C n wf).siIdx (ix2 r e) ⟨List.idxOf (1 : Fin 2) (colDims R C n wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Gathers

/-! ## Words -/

/-- 0 + 2·k as a word is the number 2·k, for k small. -/
theorem even_word (k : Nat) (hk : k < 2 ^ 30) :
    IntOp.addi 0#32 (IntOp.muli 2#32 (BitVec.ofNat 32 k)) = BitVec.ofNat 32 (2 * k) := by
  apply BitVec.eq_of_toNat_eq
  simp only [IntOp.addi, IntOp.muli, BitVec.toNat_add, BitVec.toNat_mul, BitVec.toNat_ofNat]
  omega

/-- 1 + 2·k as a word is the number 2·k + 1, for k small. -/
theorem odd_word (k : Nat) (hk : k < 2 ^ 30) :
    IntOp.addi 1#32 (IntOp.muli 2#32 (BitVec.ofNat 32 k)) = BitVec.ofNat 32 (2 * k + 1) := by
  apply BitVec.eq_of_toNat_eq
  simp only [IntOp.addi, IntOp.muli, BitVec.toNat_add, BitVec.toNat_mul, BitVec.toNat_ofNat]
  omega

/-- q·256 + p as a word, for q and p small. -/
theorem block_word (q p : Nat) (hq : q < 2 ^ 20) (hp : p < 2 ^ 20) :
    IntOp.addi (IntOp.muli (BitVec.ofNat 32 q) 256#32) (BitVec.ofNat 32 p) = BitVec.ofNat 32 (q * 256 + p) := by
  apply BitVec.eq_of_toNat_eq
  simp only [IntOp.addi, IntOp.muli, BitVec.toNat_add, BitVec.toNat_mul, BitVec.toNat_ofNat]
  omega

/-- The wrap of negative indices (compare with 0, add the size, select) leaves a small non-negative entry as it is. -/
theorem wrap_apply {s : Shape} (T Z N : IVec s 32) (i : s.Idx) (p : Nat) (hp : p < 2 ^ 31)
    (hT : T i = BitVec.ofNat 32 p) (hZ : Z i = 0#32) :
    select (cmpi .slt T Z) (addi T N) T i = BitVec.ofNat 32 p := by
  show Scalar.select (IntOp.cmpi .slt (T i) (Z i)) (IntOp.addi (T i) (N i)) (T i) = _
  rw [hT, hZ]
  have h0 : ¬ IntOp.cmpi .slt (BitVec.ofNat 32 p) 0#32 = 1#1 := by
    intro h
    have := (StableHlo.Predicate.slt_iff_toNat (by rw [BitVec.toNat_ofNat]; omega) (by decide)).mp h
    simp at this
  rw [ValueIdx.eq_zero_of_ne_one h0, ValueIdx.select_zero]

/-! ## The wrapper's index tables -/

section Tables

/-- The even numbers below 4096 then the odd ones: the wrapper's order of x's columns, as its operations compute it. -/
abbrev zipD : IVec S4096 32 :=
  concatenate S4096 0
    [⟨S2048, addi (broadcastInDim S2048 ![] Facts₀.bcast_S_S2048 (constantI S_ 32 0#32))
        (muli (broadcastInDim S2048 ![] Facts₀.bcast_S_S2048 (constantI S_ 32 2#32)) (iotaInDim S2048 32 0))⟩,
     ⟨S2048, addi (broadcastInDim S2048 ![] Facts₀.bcast_S_S2048 (constantI S_ 32 1#32))
        (muli (broadcastInDim S2048 ![] Facts₀.bcast_S_S2048 (constantI S_ 32 2#32)) (iotaInDim S2048 32 0))⟩]
    Facts₀.concatenates_S2048_S2048_S4096_d0

/-- Entry e of that table is the number permD e. -/
theorem zipD_apply (e : Fin 4096) : zipD (ix1 e) = BitVec.ofNat 32 (permD e).val := by
  by_cases he : e.val < 2048
  · rw [zipD, concatenate_pair_apply_left (t := S4096) (s₁ := S2048) (s₂ := S2048) 0 _ _
      Facts₀.concatenates_S2048_S2048_S4096_d0 (ix1 e) rfl (ix1 ⟨e.val, he⟩)
      (fun b => by match b with | ⟨0, _⟩ => rfl)]
    show IntOp.addi 0#32 (IntOp.muli 2#32 (BitVec.ofNat 32 e.val)) = _
    rw [even_word _ (by omega)]
    congr 1
    show _ = 2 * (e.val % 2048) + e.val / 2048
    omega
  · have he' := e.isLt
    rw [zipD, concatenate_pair_apply_right (t := S4096) (s₁ := S2048) (s₂ := S2048) 0 _ _
      Facts₀.concatenates_S2048_S2048_S4096_d0 (ix1 e) rfl rfl (ix1 ⟨e.val - 2048, by omega⟩)
      (fun b hb => absurd (Subsingleton.elim _ _) hb)
      (by show e.val - 2048 + 2048 = e.val; omega)]
    show IntOp.addi 1#32 (IntOp.muli 2#32 (BitVec.ofNat 32 (e.val - 2048))) = _
    rw [odd_word _ (by omega)]
    congr 1
    show _ = 2 * (e.val % 2048) + e.val / 2048
    omega

end Tables

section Tables2

/-- The even numbers below 256 then the odd ones: the order inside one block of W1's rows, as the operations compute it. -/
abbrev zipL : IVec S256 32 :=
  concatenate S256 0
    [⟨S128, addi (broadcastInDim S128 ![] Facts₀.bcast_S_S128 (constantI S_ 32 0#32))
        (muli (broadcastInDim S128 ![] Facts₀.bcast_S_S128 (constantI S_ 32 2#32)) (iotaInDim S128 32 0))⟩,
     ⟨S128, addi (broadcastInDim S128 ![] Facts₀.bcast_S_S128 (constantI S_ 32 1#32))
        (muli (broadcastInDim S128 ![] Facts₀.bcast_S_S128 (constantI S_ 32 2#32)) (iotaInDim S128 32 0))⟩]
    Facts₀.concatenates_S128_S128_S256_d0

/-- Entry j of that table is the number permL j. -/
theorem zipL_apply (j : Fin 256) : zipL (ix1 j) = BitVec.ofNat 32 (permL j).val := by
  by_cases he : j.val < 128
  · rw [zipL, concatenate_pair_apply_left (t := S256) (s₁ := S128) (s₂ := S128) 0 _ _
      Facts₀.concatenates_S128_S128_S256_d0 (ix1 j) rfl (ix1 ⟨j.val, he⟩)
      (fun b => by match b with | ⟨0, _⟩ => rfl)]
    show IntOp.addi 0#32 (IntOp.muli 2#32 (BitVec.ofNat 32 j.val)) = _
    rw [even_word _ (by omega)]
    congr 1
    show _ = 2 * (j.val % 128) + j.val / 128
    omega
  · have he' := j.isLt
    rw [zipL, concatenate_pair_apply_right (t := S256) (s₁ := S128) (s₂ := S128) 0 _ _
      Facts₀.concatenates_S128_S128_S256_d0 (ix1 j) rfl rfl (ix1 ⟨j.val - 128, by omega⟩)
      (fun b hb => absurd (Subsingleton.elim _ _) hb)
      (by show j.val - 128 + 128 = j.val; omega)]
    show IntOp.addi 1#32 (IntOp.muli 2#32 (BitVec.ofNat 32 (j.val - 128))) = _
    rw [odd_word _ (by omega)]
    congr 1
    show _ = 2 * (j.val % 128) + j.val / 128
    omega

/-- The 64 × 256 grid of row numbers: block q's first row, q·256, plus the in-block order. -/
abbrev gridH : IVec S64x256 32 :=
  addi
    (broadcastInDim S64x256 ![0, 1] Facts₀.bcast_S64x1_S64x256_0_1
      (broadcastInDim S64x1 ![0] Facts₀.bcast_S64_S64x1_0
        (muli (iotaInDim S64 32 0) (broadcastInDim S64 ![] Facts₀.bcast_S_S64 (constantI S_ 32 256#32)))))
    (broadcastInDim S64x256 ![0, 1] Facts₀.bcast_S1x256_S64x256_0_1
      (broadcastInDim S1x256 ![1] Facts₀.bcast_S256_S1x256_1 zipL))

/-- Entry (q, j) of the grid is the number of hidden unit blockH q j. -/
theorem gridH_apply (q : Fin 64) (j : Fin 256) : gridH (ix2 q j) = BitVec.ofNat 32 (blockH q j).val := by
  have e1 : broadcastInDim S64x256 ![0, 1] Facts₀.bcast_S64x1_S64x256_0_1
      (broadcastInDim S64x1 ![0] Facts₀.bcast_S64_S64x1_0
        (muli (iotaInDim S64 32 0) (broadcastInDim S64 ![] Facts₀.bcast_S_S64 (constantI S_ 32 256#32)))) (ix2 q j)
      = IntOp.muli (BitVec.ofNat 32 q.val) 256#32 := by
    show muli (iotaInDim S64 32 0) (broadcastInDim S64 ![] Facts₀.bcast_S_S64 (constantI S_ 32 256#32)) _ = _
    show IntOp.muli (BitVec.ofNat 32 _) 256#32 = _
    rfl
  have e2 : broadcastInDim S64x256 ![0, 1] Facts₀.bcast_S1x256_S64x256_0_1
      (broadcastInDim S1x256 ![1] Facts₀.bcast_S256_S1x256_1 zipL) (ix2 q j) = zipL (ix1 j) := by
    simp only [broadcastInDim]
    congr 1
    funext a
    match a with
    | ⟨0, _⟩ => rfl
  show IntOp.addi _ _ = _
  rw [e1, e2, zipL_apply, block_word _ _ (by have := q.isLt; omega) (by have := (permL j).isLt; omega)]
  rfl

/-- The grid flattened: the wrapper's order of W1's rows, as its operations compute it. -/
abbrev rowsH : IVec S16384 32 := shapeCast S16384 gridH Facts₀.shapeCasts_S64x256_S16384

/-- Entry h of the flattened grid is the number permH h. -/
theorem rowsH_apply (h : Fin 16384) : rowsH (ix1 h) = BitVec.ofNat 32 (permH h).val := by
  have hh := h.isLt
  rw [rowsH, shapeCast_apply gridH Facts₀.shapeCasts_S64x256_S16384 (ix1 h)
    (ix2 (⟨h.val / 256, by omega⟩ : Fin 64) (⟨h.val % 256, Nat.mod_lt _ (by decide)⟩ : Fin 256))
    (by rw [Shape.rowMajor_val_two, Shape.rowMajor_val_one]
        show h.val / 256 * 256 + h.val % 256 = h.val
        omega)]
  rw [gridH_apply]
  rfl

end Tables2

/-! ## The three staged arrays as the operations' terms -/

set_option maxHeartbeats 8000000 in
theorem v52_term (c : Dev nD) :
    (V m c main_v52 : S4096x4096.Idx → EReal)
      = (truncf (F := Ideal) .bf16 (Host.gather gather_S4096x4096_S4096x1_S4096x4096_0_1_n_n_1_1_40961
          (m ((c : Thread nD τ).loc main_arg0) : S4096x4096.Idx → EReal)
          (broadcastInDim S4096x1 ![0] Facts₀.bcast_S4096_S4096x1_0
            (select (cmpi .slt zipD (broadcastInDim S4096 ![] Facts₀.bcast_S_S4096 (constantI S_ 32 0#32)))
              (addi zipD (broadcastInDim S4096 ![] Facts₀.bcast_S_S4096 (constantI S_ 32 4096#32))) zipD)))
          Facts₀.bitsLt_bf16_f32 : S4096x4096.Idx → EReal) := by
  dsimp only [Gen.V, Gen.hostOps0]
  after_results_simp
  repeat (first
    | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide))

set_option maxHeartbeats 16000000 in
theorem v44_term (c : Dev nD) :
    (V m c main_v44 : S16384x2048.Idx → BitVec 32)
      = (Host.gather gather_S16384x2048_S16384x1_S16384x2048_1_0_n_n_0_1_12048
          (m ((c : Thread nD τ).loc main_arg1) : S16384x2048.Idx → BitVec 32)
          (broadcastInDim S16384x1 ![0] Facts₀.bcast_S16384_S16384x1_0
            (select (cmpi .slt rowsH (broadcastInDim S16384 ![] Facts₀.bcast_S_S16384 (constantI S_ 32 0#32)))
              (addi rowsH (broadcastInDim S16384 ![] Facts₀.bcast_S_S16384 (constantI S_ 32 16384#32))) rowsH))
          : S16384x2048.Idx → BitVec 32) := by
  dsimp only [Gen.V, Gen.hostOps0]
  after_results_simp
  repeat (first
    | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide))
  rfl

set_option maxHeartbeats 16000000 in
theorem v51_term (c : Dev nD) :
    (V m c main_v51 : S16384x1.Idx → EReal)
      = (Host.gather gather_S16384x1_S16384x1_S16384x1_1_0_n_n_0_1_11
          (m ((c : Thread nD τ).loc main_arg2) : S16384x1.Idx → EReal)
          (broadcastInDim S16384x1 ![0] Facts₀.bcast_S16384_S16384x1_0
            (select (cmpi .slt rowsH (broadcastInDim S16384 ![] Facts₀.bcast_S_S16384 (constantI S_ 32 0#32)))
              (addi rowsH (broadcastInDim S16384 ![] Facts₀.bcast_S_S16384 (constantI S_ 32 16384#32))) rowsH))
          : S16384x1.Idx → EReal) := by
  dsimp only [Gen.V, Gen.hostOps0]
  after_results_simp
  repeat (first
    | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide))
  rfl

/-! ## The columns of start indices -/

/-- The column of start indices for x's columns: entry e is the number permD e. -/
theorem colD_apply (e : Fin 4096) :
    broadcastInDim S4096x1 ![0] Facts₀.bcast_S4096_S4096x1_0
      (select (cmpi .slt zipD (broadcastInDim S4096 ![] Facts₀.bcast_S_S4096 (constantI S_ 32 0#32)))
        (addi zipD (broadcastInDim S4096 ![] Facts₀.bcast_S_S4096 (constantI S_ 32 4096#32))) zipD) (ix2 e (0 : Fin 1))
      = BitVec.ofNat 32 (permD e).val := by
  have e0 : ∀ W : IVec S4096 32,
      broadcastInDim S4096x1 ![0] Facts₀.bcast_S4096_S4096x1_0 W (ix2 e (0 : Fin 1)) = W (ix1 e) := by
    intro W
    simp only [broadcastInDim]
    congr 1
    funext a
    match a with
    | ⟨0, _⟩ => rfl
  rw [e0]
  exact wrap_apply _ _ _ _ _ (by have := (permD e).isLt; omega) (zipD_apply e) rfl

/-- The column of start indices for W1's rows: entry h is the number permH h. -/
theorem colH_apply (h : Fin 16384) :
    broadcastInDim S16384x1 ![0] Facts₀.bcast_S16384_S16384x1_0
      (select (cmpi .slt rowsH (broadcastInDim S16384 ![] Facts₀.bcast_S_S16384 (constantI S_ 32 0#32)))
        (addi rowsH (broadcastInDim S16384 ![] Facts₀.bcast_S_S16384 (constantI S_ 32 16384#32))) rowsH) (ix2 h (0 : Fin 1))
      = BitVec.ofNat 32 (permH h).val := by
  have e0 : ∀ W : IVec S16384 32,
      broadcastInDim S16384x1 ![0] Facts₀.bcast_S16384_S16384x1_0 W (ix2 h (0 : Fin 1)) = W (ix1 h) := by
    intro W
    simp only [broadcastInDim]
    congr 1
    funext a
    match a with
    | ⟨0, _⟩ => rfl
  rw [e0]
  exact wrap_apply _ _ _ _ _ (by have := (permH h).isLt; omega) (rowsH_apply h) rfl

/-- A small number read signed off its word and clamped below a larger bound is itself. -/
theorem clamp_small (p N : Nat) (hp : p < N) (hN : N < 2 ^ 31) :
    min (BitVec.ofNat 32 p).toInt.toNat (N - 1) = p := by
  rw [StableHlo.Predicate.toInt_ofNat_small p (by omega), Int.toNat_natCast]
  omega

/-! ## The three arrays at an index -/

/-- The token array the call stages: column e of row n is x's column `permD e` (the change of float format is the identity). -/
theorem tokens_apply (c : Dev nD) (n e : Fin 4096) :
    (V m c main_v52 : S4096x4096.Idx → EReal) (ix2 n e)
      = (m ((c : Thread nD τ).loc main_arg0) : S4096x4096.Idx → EReal) (ix2 n (permD e)) := by
  rw [v52_term m c]
  show Host.gather gather_S4096x4096_S4096x1_S4096x4096_0_1_n_n_1_1_40961 _ _ (ix2 n e) = _
  rw [show gather_S4096x4096_S4096x1_S4096x4096_0_1_n_n_1_1_40961
        = colDims 4096 4096 4096 Facts₀.gather_S4096x4096_S4096x1_S4096x4096_0_1_n_n_1_1_40961_wf from rfl,
    gather_cols_apply (by decide)]
  refine congrArg _ (congrArg (fun r : Fin 4096 => ix2 n r) (Fin.ext ?_))
  show min _ (4096 - 1) = (permD e).val
  rw [colD_apply, clamp_small _ _ (permD e).isLt (by decide)]

/-- The first layer's packed words the call stages: row h is packed row `permH h`. -/
theorem packed1_apply (c : Dev nD) (h : Fin 16384) (k : Fin 2048) :
    (V m c main_v44 : S16384x2048.Idx → BitVec 32) (ix2 h k)
      = (m ((c : Thread nD τ).loc main_arg1) : S16384x2048.Idx → BitVec 32) (ix2 (permH h) k) := by
  rw [v44_term m c]
  rw [show gather_S16384x2048_S16384x1_S16384x2048_1_0_n_n_0_1_12048
        = rowDims 16384 2048 16384 Facts₀.gather_S16384x2048_S16384x1_S16384x2048_1_0_n_n_0_1_12048_wf from rfl,
    gather_rows_apply (by decide)]
  refine congrArg _ (congrArg (fun r : Fin 16384 => ix2 r k) (Fin.ext ?_))
  show min _ (16384 - 1) = (permH h).val
  rw [colH_apply, clamp_small _ _ (permH h).isLt (by decide)]

/-- The first layer's scales the call stages: row h is the scale of row `permH h`. -/
theorem scales1_apply (c : Dev nD) (h : Fin 16384) :
    (V m c main_v51 : S16384x1.Idx → EReal) (ix2 h (0 : Fin 1))
      = (m ((c : Thread nD τ).loc main_arg2) : S16384x1.Idx → EReal) (ix2 (permH h) (0 : Fin 1)) := by
  rw [v51_term m c]
  rw [show gather_S16384x1_S16384x1_S16384x1_1_0_n_n_0_1_11
        = rowDims 16384 1 16384 Facts₀.gather_S16384x1_S16384x1_S16384x1_1_0_n_n_0_1_11_wf from rfl,
    gather_rows_apply (by decide)]
  refine congrArg _ (congrArg (fun r : Fin 16384 => ix2 r (0 : Fin 1)) (Fin.ext ?_))
  show min _ (16384 - 1) = (permH h).val
  rw [colH_apply, clamp_small _ _ (permH h).isLt (by decide)]

end QuantMlp.Prefix

end
-- ==== Proof.Bridge.lean ====
/-
  The result array is `G` of the five arguments.

  Grid point 64·q + s reads token rows 256·q …, hidden rows 256·s … of the gathered first layer, and packed columns
  128·s … of the second layer. Position e' of the token block's columns holds x's column `permD e'`, and row e of the
  gathered first-layer block is row `blockH s e` of the first layer; the concatenated dequantization of that row at
  position e' is W1(blockH s e, permD e'), and of the second layer's block at position e is W2(d, blockH s e). So the
  point's contribution at (r, d) is Σ_e gelu(pre(256·q + r, blockH s e)) · W2(d, blockH s e), the contraction over the
  model axis reordered by the permutation permD; and the sum over the 64 points of a token block is the sum over the
  whole hidden axis, block by block.
-/
import proofs.«429706_j59657095741907_2_alg».proof.Proof.Accum
import proofs.«429706_j59657095741907_2_alg».proof.Proof.Payloads
import proofs.«429706_j59657095741907_2_alg».proof.Proof.SumOrder
import proofs.«429706_j59657095741907_2_alg».proof.Proof.HostPrefix

noncomputable section

namespace QuantMlp.Bridge

open Cert.KernelIdeal Cert.KernelIdeal.Gen Idealize.ShloMosaic Idealize.ShloMosaic.TcCoe
open Idealize.ShloMosaic.ValueIdx Idealize.SL.Sem QuantMlp QuantMlp.Accum QuantMlp.Body QuantMlp.Prefix

variable (m : (ℓ : Loc nD τ sig) → Buf (Elt Ideal) ℓ)

/-- The five arguments as launched. -/
abbrev X (c : Dev nD) : S4096x4096.Idx → EReal := m ((c : Thread nD τ).loc main_arg0)
abbrev P1 (c : Dev nD) : S16384x2048.Idx → BitVec 32 := m ((c : Thread nD τ).loc main_arg1)
abbrev S1 (c : Dev nD) : S16384x1.Idx → EReal := m ((c : Thread nD τ).loc main_arg2)
abbrev P2 (c : Dev nD) : S4096x8192.Idx → BitVec 32 := m ((c : Thread nD τ).loc main_arg3)
abbrev S2 (c : Dev nD) : S4096x1.Idx → EReal := m ((c : Thread nD τ).loc main_arg4)

/-! ## The windows' block indices, decided over the grid -/

theorem idx0 : ∀ t : Fin cfg0.N, win0_0.index t (0 : Fin 2) = t.val / 64 ∧ win0_0.index t (1 : Fin 2) = 0 :=
  (by decide +kernel : ∀ t : Fin grid0.N, _)
theorem idx1 : ∀ t : Fin cfg0.N, win0_1.index t (0 : Fin 2) = t.val % 64 ∧ win0_1.index t (1 : Fin 2) = 0 :=
  (by decide +kernel : ∀ t : Fin grid0.N, _)
theorem idx2 : ∀ t : Fin cfg0.N, win0_2.index t (0 : Fin 2) = t.val % 64 ∧ win0_2.index t (1 : Fin 2) = 0 :=
  (by decide +kernel : ∀ t : Fin grid0.N, _)
theorem idx3 : ∀ t : Fin cfg0.N, win0_3.index t (0 : Fin 2) = 0 ∧ win0_3.index t (1 : Fin 2) = t.val % 64 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

/-! ## The blocks read where the windows put them -/

theorem xblk_apply (c : Dev nD) (t : Fin cfg0.N) (r : Fin 256) (e : Fin 4096) (n : Fin 4096)
    (hn : n.val = t.val / 64 * 256 + r.val) :
    xblk m c t (ix2 r e) = (V m c main_v52 : S4096x4096.Idx → EReal) (ix2 n e) := by
  unfold xblk iblk
  rw [View.read_apply]
  refine congrArg (V m c main_v52 : S4096x4096.Idx → EReal) ?_
  funext a; apply Fin.ext
  match a with
  | ⟨0, _⟩ => show win0_0.index t (0 : Fin 2) * 256 + 1 * r.val = n.val; rw [(idx0 t).1, hn]; omega
  | ⟨1, _⟩ => show win0_0.index t (1 : Fin 2) * 4096 + 1 * e.val = e.val; rw [(idx0 t).2]; omega

theorem pblk1_apply (c : Dev nD) (t : Fin cfg0.N) (e : Fin 256) (k : Fin 2048) (h : Fin 16384)
    (hh : h.val = t.val % 64 * 256 + e.val) :
    pblk1 m c t (ix2 e k) = (V m c main_v44 : S16384x2048.Idx → BitVec 32) (ix2 h k) := by
  unfold pblk1 iblk
  rw [View.read_apply]
  refine congrArg (V m c main_v44 : S16384x2048.Idx → BitVec 32) ?_
  funext a; apply Fin.ext
  match a with
  | ⟨0, _⟩ => show win0_1.index t (0 : Fin 2) * 256 + 1 * e.val = h.val; rw [(idx1 t).1, hh]; omega
  | ⟨1, _⟩ => show win0_1.index t (1 : Fin 2) * 2048 + 1 * k.val = k.val; rw [(idx1 t).2]; omega

theorem sblk1_apply (c : Dev nD) (t : Fin cfg0.N) (e : Fin 256) (h : Fin 16384)
    (hh : h.val = t.val % 64 * 256 + e.val) :
    sblk1 m c t (ix2 e (0 : Fin 1)) = (V m c main_v51 : S16384x1.Idx → EReal) (ix2 h (0 : Fin 1)) := by
  unfold sblk1 iblk
  rw [View.read_apply]
  refine congrArg (V m c main_v51 : S16384x1.Idx → EReal) ?_
  funext a; apply Fin.ext
  match a with
  | ⟨0, _⟩ => show win0_2.index t (0 : Fin 2) * 256 + 1 * e.val = h.val; rw [(idx2 t).1, hh]; omega
  | ⟨1, _⟩ => show win0_2.index t (1 : Fin 2) * 1 + 1 * 0 = 0; rw [(idx2 t).2]

theorem pblk2_apply (c : Dev nD) (t : Fin cfg0.N) (d : Fin 4096) (k : Fin 128) (k' : Fin 8192)
    (hk : k'.val = t.val % 64 * 128 + k.val) :
    pblk2 m c t (ix2 d k) = P2 m c (ix2 d k') := by
  unfold pblk2 iblk
  rw [View.read_apply]
  refine (congrArg (V m c main_arg3 : S4096x8192.Idx → BitVec 32) ?_).trans (congrFun (V_main_arg3 m c) _)
  funext a; apply Fin.ext
  match a with
  | ⟨0, _⟩ => show win0_3.index t (0 : Fin 2) * 4096 + 1 * d.val = d.val; rw [(idx3 t).1]; omega
  | ⟨1, _⟩ => show win0_3.index t (1 : Fin 2) * 128 + 1 * k.val = k'.val; rw [(idx3 t).2, hk]; omega

theorem sblk2_apply (c : Dev nD) (t : Fin cfg0.N) (d : Fin 4096) :
    sblk2 m c t (ix2 d (0 : Fin 1)) = S2 m c (ix2 d (0 : Fin 1)) := by
  unfold sblk2 iblk
  rw [View.read_apply]
  refine (congrArg (V m c main_arg4 : S4096x1.Idx → EReal) ?_).trans (congrFun (V_main_arg4 m c) _)
  funext a; apply Fin.ext
  match a with
  | ⟨0, _⟩ => show win0_4.index t (0 : Fin 2) * 4096 + 1 * d.val = d.val; rw [(idx4 t).1]; omega
  | ⟨1, _⟩ => show win0_4.index t (1 : Fin 2) * 1 + 1 * 0 = 0; rw [(idx4 t).2]

/-! ## The dequantized blocks are blocks of W1 and W2 -/

/-- Row e of the point's first-layer block at position e' is W1(blockH s e, permD e'). -/
theorem w1blk_eq (c : Dev nD) (t : Fin cfg0.N) (s : Fin 64) (hs : t.val % 64 = s.val) (e : Fin 256) (e' : Fin 4096) :
    cat1 (pblk1 m c t) (sblk1 m c t) e e' = w1 (P1 m c) (S1 m c) (blockH s e) (permD e') := by
  have hh : ((⟨s.val * 256 + e.val, by have := s.isLt; have := e.isLt; omega⟩ : Fin 16384)).val = t.val % 64 * 256 + e.val := by
    rw [hs]
  have hperm := permH_block s e ⟨s.val * 256 + e.val, by have := s.isLt; have := e.isLt; omega⟩ rfl
  unfold cat1 w1
  refine congrArg₂ (· * ·) (congrArg₂ nib ?_ (Fin.ext (par_permD e').symm)) ?_
  · refine (pblk1_apply m c t e _ _ hh).trans ((packed1_apply m c _ _).trans ?_)
    rw [hperm]
    exact congrArg (fun k => P1 m c (ix2 (blockH s e) k)) (Fin.ext (half_permD e').symm)
  · refine (sblk1_apply m c t e _ hh).trans ((scales1_apply m c _).trans ?_)
    rw [hperm]

/-- Row d of the point's second-layer block at position e is W2(d, blockH s e). -/
theorem w2blk_eq (c : Dev nD) (t : Fin cfg0.N) (s : Fin 64) (hs : t.val % 64 = s.val) (d : Fin 4096) (e : Fin 256) :
    cat2 (pblk2 m c t) (sblk2 m c t) d e = w2 (P2 m c) (S2 m c) d (blockH s e) := by
  unfold cat2 w2
  refine congrArg₂ (· * ·) (congrArg₂ nib ?_ (Fin.ext (par_blockH s e).symm)) (sblk2_apply m c t d)
  exact pblk2_apply m c t d _ _ (by rw [half_blockH, hs])

/-! ## A point's contribution, and the result -/

theorem contrib_eq (c : Dev nD) (q : Fin 16) (s : Fin 64) (r : Fin 256) (d : Fin 4096) (n : Fin 4096)
    (hn : n.val = q.val * 256 + r.val) :
    contrib m c (64 * q.val + s.val) (ix2 r d)
      = ∑ e : Fin 256, gelu (pre (X m c) (P1 m c) (S1 m c) n (blockH s e)) * w2 (P2 m c) (S2 m c) d (blockH s e) := by
  have hN : cfg0.N = 1024 := N_0
  have hlt : 64 * q.val + s.val < cfg0.N := by have := q.isLt; have := s.isLt; omega
  have hs : (⟨64 * q.val + s.val, hlt⟩ : Fin cfg0.N).val % 64 = s.val := by have := s.isLt; dsimp only; omega
  have hq : (⟨64 * q.val + s.val, hlt⟩ : Fin cfg0.N).val / 64 = q.val := by have := s.isLt; dsimp only; omega
  unfold contrib
  rw [dif_pos hlt]
  refine Finset.sum_congr rfl fun e _ => ?_
  refine congrArg₂ (· * ·) ?_ (w2blk_eq m c ⟨_, hlt⟩ s hs d e)
  refine (hidden_apply (xblk m c ⟨_, hlt⟩) (pblk1 m c ⟨_, hlt⟩) (sblk1 m c ⟨_, hlt⟩) r e).trans (congrArg gelu ?_)
  unfold pre
  rw [← sum_permD (fun e'' => X m c (ix2 n e'') * w1 (P1 m c) (S1 m c) (blockH s e) e'')]
  refine Finset.sum_congr rfl fun e' _ => ?_
  refine congrArg₂ (· * ·) ?_ (w1blk_eq m c ⟨_, hlt⟩ s hs e e')
  exact (xblk_apply m c ⟨_, hlt⟩ r e' n (by rw [hq, hn])).trans (tokens_apply m c n e')

/-- THE RESULT ARRAY IS `G`. -/
theorem out_eq (c : Dev nD) : Out m c = G (X m c) (P1 m c) (S1 m c) (P2 m c) (S2 m c) := by
  funext i
  have hi0 : (i 0).val < 4096 := (i 0).isLt
  unfold Out G
  rw [Finset.sum_range, ← sum_blockH (fun h => gelu (pre (X m c) (P1 m c) (S1 m c) (i 0) h) * w2 (P2 m c) (S2 m c) (i 1) h)]
  refine Finset.sum_congr rfl fun s _ => ?_
  exact contrib_eq m c ⟨(i 0).val / 256, by omega⟩ s ⟨(i 0).val % 256, Nat.mod_lt _ (by decide)⟩ (i 1) (i 0) (by dsimp only; omega)

end QuantMlp.Bridge

end
-- ==== Proof.RefIsG.lean ====
/-
  The reference's result term, read one operation at a time, is the function `G` of its five arguments.

  Each packed matrix is split into its high-nibble words (shift right by four, minus eight) and its low-nibble words
  (low four bits, minus eight); the two are joined on a new last axis of extent 2 and that axis is flattened into the
  column axis, so flat column e reads packed column e / 2 at nibble e mod 2: after the conversion and the row scale this
  is W1 (and W2). The first product is the pre-activation, the elementwise chain is gelu with the cube grouped as
  (s · s) · s, and the second product against the transposed W2 is the result.
-/
import proofs.«429706_j59657095741907_2_alg».proof.Proof.Gen.ReferenceIdeal.Read
import proofs.«429706_j59657095741907_2_alg».proof.Proof.Spec
import Idealize.ShloMosaic.Lib.ValueIdx
import Idealize.ShloMosaic.Lib.Pipeline.Value
import Idealize.ShloMosaic.PureOps.Ideal.Laws

noncomputable section

namespace QuantMlp.Ref

open Cert.ReferenceIdeal Cert.ReferenceIdeal.Read Idealize.ShloMosaic Idealize.ShloMosaic.ValueIdx QuantMlp

/-! ## First layer: the dequantized weight -/

/-- The high-nibble word: the shifted word minus eight, at packed position (h, c). -/
theorem v3_at (x1 : (⟨S16384x2048, .i32⟩ : BufTy).Contents (Elt Ideal)) (i : S16384x2048.Idx) :
    val_main_v3 (F := Ideal) x1 i = hiW (x1 i) := by
  rw [val_main_v3_apply, val_main_v1_apply, val_main_v0_apply, val_main_v2_apply, val_main_c_apply, val_main_c_0_apply,
    shrsi_four]
  rfl

/-- The low-nibble word: the low four bits minus eight. -/
theorem v7_at (x1 : (⟨S16384x2048, .i32⟩ : BufTy).Contents (Elt Ideal)) (i : S16384x2048.Idx) :
    val_main_v7 (F := Ideal) x1 i = loW (x1 i) := by
  rw [val_main_v7_apply, val_main_v5_apply, val_main_v4_apply, val_main_v6_apply, val_main_c_1_apply, val_main_c_2_apply]
  rfl

/-- The joined array at last coordinate 0 is the high-nibble word. -/
theorem v10_hi (x1 : (⟨S16384x2048, .i32⟩ : BufTy).Contents (Elt Ideal)) (h : Fin 16384) (c : Fin 2048) :
    val_main_v10 (F := Ideal) x1 (ix3 h c (0 : Fin 2)) = hiW (x1 (ix2 h c)) := by
  unfold val_main_v10
  rw [concatenate_pair_apply_left (t := S16384x2048x2) (s₁ := S16384x2048x1) (s₂ := S16384x2048x1) (2 : Fin S16384x2048x2.rank) _ _ _ (ix3 h c (0 : Fin 2)) rfl (ix3 h c (0 : Fin 1))
    (fun b => by match b with | ⟨0, _⟩ => rfl | ⟨1, _⟩ => rfl | ⟨2, _⟩ => rfl)]
  have e : idx_main_v8 (ix3 h c (0 : Fin 1)) = ix2 h c :=
    funext fun a => Fin.ext (by match a with | ⟨0, _⟩ => rfl | ⟨1, _⟩ => rfl)
  rw [val_main_v8_apply, e, v3_at]

/-- The joined array at last coordinate 1 is the low-nibble word. -/
theorem v10_lo (x1 : (⟨S16384x2048, .i32⟩ : BufTy).Contents (Elt Ideal)) (h : Fin 16384) (c : Fin 2048) :
    val_main_v10 (F := Ideal) x1 (ix3 h c (1 : Fin 2)) = loW (x1 (ix2 h c)) := by
  unfold val_main_v10
  rw [concatenate_pair_apply_right (t := S16384x2048x2) (s₁ := S16384x2048x1) (s₂ := S16384x2048x1) (2 : Fin S16384x2048x2.rank) _ _ _ (ix3 h c (1 : Fin 2)) rfl rfl (ix3 h c (0 : Fin 1))
    (fun b hb => by
      match b with
      | ⟨0, _⟩ => rfl
      | ⟨1, _⟩ => rfl
      | ⟨2, _⟩ => exact absurd rfl hb)
    rfl]
  have e : idx_main_v9 (ix3 h c (0 : Fin 1)) = ix2 h c :=
    funext fun a => Fin.ext (by match a with | ⟨0, _⟩ => rfl | ⟨1, _⟩ => rfl)
  rw [val_main_v9_apply, e, v7_at]

/-- The joined array at any last coordinate: the nibble's word. -/
theorem v10_at (x1 : (⟨S16384x2048, .i32⟩ : BufTy).Contents (Elt Ideal)) (h : Fin 16384) (c : Fin 2048) (b : Fin 2) :
    val_main_v10 (F := Ideal) x1 (ix3 h c b) = if b.val = 0 then hiW (x1 (ix2 h c)) else loW (x1 (ix2 h c)) := by
  match b with
  | ⟨0, _⟩ => exact v10_hi x1 h c
  | ⟨1, _⟩ => exact v10_lo x1 h c

/-- Row-major flattening of the last two axes: column e of the flat row sits at packed column e / 2, nibble e mod 2. -/
theorem idx11_eq (h : Fin 16384) (e : Fin 4096) :
    idx_main_v11 (ix2 h e) = ix3 h (half (n := 2048) e) (par (n := 2048) e) :=
  funext fun a => Fin.ext (by
    have he := e.isLt
    match a with
    | ⟨0, _⟩ => show (h.val * 4096 + e.val) / 4096 = h.val; omega
    | ⟨1, _⟩ => show (h.val * 4096 + e.val) / 2 % 2048 = e.val / 2; omega
    | ⟨2, _⟩ => show (h.val * 4096 + e.val) % 2 = e.val % 2; omega)

/-- The first layer's dequantized weight. -/
theorem v14_at (x1 : (⟨S16384x2048, .i32⟩ : BufTy).Contents (Elt Ideal)) (x2 : (⟨S16384x1, .f32⟩ : BufTy).Contents (Elt Ideal))
    (h : Fin 16384) (e : Fin 4096) :
    val_main_v14 (F := Ideal) x1 x2 (ix2 h e) = w1 x1 x2 h e := by
  have e13 : idx_main_v13 (ix2 h e) = ix2 h (0 : Fin 1) :=
    funext fun a => Fin.ext (by match a with | ⟨0, _⟩ => rfl | ⟨1, _⟩ => rfl)
  rw [val_main_v14_apply, val_main_v12_apply, val_main_v11_apply, val_main_v13_apply, idx11_eq, e13, v10_at]
  rfl

/-! ## Second layer: the dequantized weight -/

/-- The high-nibble word of the second packed matrix. -/
theorem v18_at (x3 : (⟨S4096x8192, .i32⟩ : BufTy).Contents (Elt Ideal)) (i : S4096x8192.Idx) :
    val_main_v18 (F := Ideal) x3 i = hiW (x3 i) := by
  rw [val_main_v18_apply, val_main_v16_apply, val_main_v15_apply, val_main_v17_apply, val_main_c_3_apply, val_main_c_4_apply,
    shrsi_four]
  rfl

/-- The low-nibble word of the second packed matrix. -/
theorem v22_at (x3 : (⟨S4096x8192, .i32⟩ : BufTy).Contents (Elt Ideal)) (i : S4096x8192.Idx) :
    val_main_v22 (F := Ideal) x3 i = loW (x3 i) := by
  rw [val_main_v22_apply, val_main_v20_apply, val_main_v19_apply, val_main_v21_apply, val_main_c_5_apply, val_main_c_6_apply]
  rfl

/-- The joined array at last coordinate 0 is the high-nibble word. -/
theorem v25_hi (x3 : (⟨S4096x8192, .i32⟩ : BufTy).Contents (Elt Ideal)) (d : Fin 4096) (c : Fin 8192) :
    val_main_v25 (F := Ideal) x3 (ix3 d c (0 : Fin 2)) = hiW (x3 (ix2 d c)) := by
  unfold val_main_v25
  rw [concatenate_pair_apply_left (t := S4096x8192x2) (s₁ := S4096x8192x1) (s₂ := S4096x8192x1) (2 : Fin S4096x8192x2.rank) _ _ _
    (ix3 d c (0 : Fin 2)) rfl (ix3 d c (0 : Fin 1))
    (fun b => by match b with | ⟨0, _⟩ => rfl | ⟨1, _⟩ => rfl | ⟨2, _⟩ => rfl)]
  have e : idx_main_v23 (ix3 d c (0 : Fin 1)) = ix2 d c :=
    funext fun a => Fin.ext (by match a with | ⟨0, _⟩ => rfl | ⟨1, _⟩ => rfl)
  rw [val_main_v23_apply, e, v18_at]

/-- The joined array at last coordinate 1 is the low-nibble word. -/
theorem v25_lo (x3 : (⟨S4096x8192, .i32⟩ : BufTy).Contents (Elt Ideal)) (d : Fin 4096) (c : Fin 8192) :
    val_main_v25 (F := Ideal) x3 (ix3 d c (1 : Fin 2)) = loW (x3 (ix2 d c)) := by
  unfold val_main_v25
  rw [concatenate_pair_apply_right (t := S4096x8192x2) (s₁ := S4096x8192x1) (s₂ := S4096x8192x1) (2 : Fin S4096x8192x2.rank) _ _ _
    (ix3 d c (1 : Fin 2)) rfl rfl (ix3 d c (0 : Fin 1))
    (fun b hb => by
      match b with
      | ⟨0, _⟩ => rfl
      | ⟨1, _⟩ => rfl
      | ⟨2, _⟩ => exact absurd rfl hb)
    rfl]
  have e : idx_main_v24 (ix3 d c (0 : Fin 1)) = ix2 d c :=
    funext fun a => Fin.ext (by match a with | ⟨0, _⟩ => rfl | ⟨1, _⟩ => rfl)
  rw [val_main_v24_apply, e, v22_at]

/-- The joined array at any last coordinate: the nibble's word. -/
theorem v25_at (x3 : (⟨S4096x8192, .i32⟩ : BufTy).Contents (Elt Ideal)) (d : Fin 4096) (c : Fin 8192) (b : Fin 2) :
    val_main_v25 (F := Ideal) x3 (ix3 d c b) = if b.val = 0 then hiW (x3 (ix2 d c)) else loW (x3 (ix2 d c)) := by
  match b with
  | ⟨0, _⟩ => exact v25_hi x3 d c
  | ⟨1, _⟩ => exact v25_lo x3 d c

/-- Row-major flattening of the last two axes: column h of the flat row sits at packed column h / 2, nibble h mod 2. -/
theorem idx26_eq (d : Fin 4096) (h : Fin 16384) :
    idx_main_v26 (ix2 d h) = ix3 d (half (n := 8192) h) (par (n := 8192) h) :=
  funext fun a => Fin.ext (by
    have hh := h.isLt
    match a with
    | ⟨0, _⟩ => show (d.val * 16384 + h.val) / 16384 = d.val; omega
    | ⟨1, _⟩ => show (d.val * 16384 + h.val) / 2 % 8192 = h.val / 2; omega
    | ⟨2, _⟩ => show (d.val * 16384 + h.val) % 2 = h.val % 2; omega)

/-- The second layer's dequantized weight. -/
theorem v29_at (x3 : (⟨S4096x8192, .i32⟩ : BufTy).Contents (Elt Ideal)) (x4 : (⟨S4096x1, .f32⟩ : BufTy).Contents (Elt Ideal))
    (d : Fin 4096) (h : Fin 16384) :
    val_main_v29 (F := Ideal) x3 x4 (ix2 d h) = w2 x3 x4 d h := by
  have e28 : idx_main_v28 (ix2 d h) = ix2 d (0 : Fin 1) :=
    funext fun a => Fin.ext (by match a with | ⟨0, _⟩ => rfl | ⟨1, _⟩ => rfl)
  rw [val_main_v29_apply, val_main_v27_apply, val_main_v26_apply, val_main_v28_apply, idx26_eq, e28, v25_at]
  rfl

/-! ## The pre-activation, the activation, the result -/

/-- The first product: token n against hidden unit h. -/
theorem v31_at (x0 : (⟨S4096x4096, .f32⟩ : BufTy).Contents (Elt Ideal)) (x1 : (⟨S16384x2048, .i32⟩ : BufTy).Contents (Elt Ideal))
    (x2 : (⟨S16384x1, .f32⟩ : BufTy).Contents (Elt Ideal)) (n : Fin 4096) (h : Fin 16384) :
    val_main_v31 (F := Ideal) x0 x1 x2 (ix2 n h) = pre x0 x1 x2 n h := by
  rw [val_main_v31_apply]
  unfold pre
  refine Finset.sum_congr rfl fun k _ => ?_
  have el : lidx_main_v31 (ix2 n h) k = ix2 n k :=
    funext fun a => Fin.ext (by match a with | ⟨0, _⟩ => rfl | ⟨1, _⟩ => rfl)
  have er : idx_main_v30 (ridx_main_v31 (ix2 n h) k) = ix2 h k :=
    funext fun a => Fin.ext (by match a with | ⟨0, _⟩ => rfl | ⟨1, _⟩ => rfl)
  rw [val_main_v30_apply, el, er, v14_at]

/-- The activation: the reference cubes as (s · s) · s, the specification as s · (s · s). -/
theorem v44_at (x0 : (⟨S4096x4096, .f32⟩ : BufTy).Contents (Elt Ideal)) (x1 : (⟨S16384x2048, .i32⟩ : BufTy).Contents (Elt Ideal))
    (x2 : (⟨S16384x1, .f32⟩ : BufTy).Contents (Elt Ideal)) (n : Fin 4096) (h : Fin 16384) :
    val_main_v44 (F := Ideal) x0 x1 x2 (ix2 n h) = gelu (pre x0 x1 x2 n h) := by
  rw [val_main_v44_apply, val_main_v43_apply, val_main_v42_apply, val_main_cst_9_apply, val_main_v41_apply, val_main_v40_apply,
    val_main_cst_8_apply, val_main_v39_apply, val_main_v38_apply, val_main_v37_apply, val_main_cst_7_apply, val_main_v36_apply,
    val_main_v35_apply, val_main_v34_apply, val_main_cst_apply, val_main_v33_apply, val_main_v32_apply, v31_at]
  unfold gelu
  rw [mul_comm (pre x0 x1 x2 n h) (pre x0 x1 x2 n h * pre x0 x1 x2 n h)]
  rfl

/-- The reference's last stage at the ideal values is `G`. -/
theorem result_eq (x0 : (⟨S4096x4096, .f32⟩ : BufTy).Contents (Elt Ideal)) (x1 : (⟨S16384x2048, .i32⟩ : BufTy).Contents (Elt Ideal))
    (x2 : (⟨S16384x1, .f32⟩ : BufTy).Contents (Elt Ideal)) (x3 : (⟨S4096x8192, .i32⟩ : BufTy).Contents (Elt Ideal))
    (x4 : (⟨S4096x1, .f32⟩ : BufTy).Contents (Elt Ideal)) :
    val_main_v46 (F := Ideal) x0 x1 x2 x3 x4 = G x0 x1 x2 x3 x4 := by
  funext i
  obtain ⟨n, d, rfl⟩ : ∃ (n : Fin 4096) (d : Fin 4096), i = ix2 n d := ⟨i 0, i 1, eq_ix2 i⟩
  rw [val_main_v46_apply]
  unfold G
  refine Finset.sum_congr rfl fun k _ => ?_
  have el : lidx_main_v46 (ix2 n d) k = ix2 n k :=
    funext fun a => Fin.ext (by match a with | ⟨0, _⟩ => rfl | ⟨1, _⟩ => rfl)
  have er : idx_main_v45 (ridx_main_v46 (ix2 n d) k) = ix2 d k :=
    funext fun a => Fin.ext (by match a with | ⟨0, _⟩ => rfl | ⟨1, _⟩ => rfl)
  rw [val_main_v45_apply, el, er, v44_at, v29_at]

end QuantMlp.Ref

end
-- ==== Proof.lean ====
/-
  A two-layer MLP whose weights are packed two signed 4-bit values to a word, against its plain reference:
      out(n, d) = Σ_h gelu(Σ_e x(n, e) · W1(h, e)) · W2(d, h),
  W1 (16384 × 4096) and W2 (4096 × 16384) the row-scaled nibbles of the packed words, gelu the tanh approximation.

  The kernel walks a 16 × 64 grid: token block q (256 tokens) against hidden block s (256 units). It dequantizes a block
  with the high nibbles BEFORE the low ones instead of interleaved, which reorders the contracted axis of both products;
  the code around the call compensates by gathering x's columns in that order over the whole model axis, and the first
  layer's rows in that order inside each hidden block, so that every product still pairs matching entries. Per point it
  adds Σ_{e < 256} gelu(·)(r, e) · W2blk(d, e) into a 256 × 4096 accumulator that is zeroed at s = 0 and copied to the
  output block at s = 63.

  At the ideal values every float is an extended real, a change of float format is the identity, and both matrix
  products into a zero accumulator are plain finite sums. The two sides then differ only in the ORDER and GROUPING of
  finite sums over a commutative monoid and in s·(s·s) against (s·s)·s: no distributivity, no cancelling, so the
  precondition (finite inputs) is never opened.
    * Spec        — the one function G of the five arguments, and the concatenated order (unzip, permD, blockH).
    * RefIsG      — the reference's last stage, read one operation at a time, is G.
    * HostPrefix  — what the call finds in the three gathered arrays, entry by entry.
    * Payloads    — the body's three stored values at an entry; SumOrder — the two reorderings of sums.
    * Pieces      — what one grid point leaves in the accumulator, from the body's run.
    * Accum       — the accumulator after a point is the sum of its run's contributions; the write-back; the cover.
    * Bridge      — a point's contribution in terms of G's summands; the result array is G.
  The three frames are the generated ones (the reference's is its generated run with the result dropped); the ideal
  pass rewrote nothing, so the idealization claim is trivial.
-/
import proofs.«429706_j59657095741907_2_alg».proof.Defs
import proofs.«429706_j59657095741907_2_alg».proof.Proof.Gen.Kernel
import proofs.«429706_j59657095741907_2_alg».proof.Proof.Gen.Kernel.Skeleton
import proofs.«429706_j59657095741907_2_alg».proof.Proof.Gen.Kernel.Launch
import proofs.«429706_j59657095741907_2_alg».proof.Proof.Gen.Kernel.Points
import proofs.«429706_j59657095741907_2_alg».proof.Proof.Gen.Kernel.Frame
import proofs.«429706_j59657095741907_2_alg».proof.Proof.Gen.KernelIdeal
import proofs.«429706_j59657095741907_2_alg».proof.Proof.Gen.KernelIdeal.Skeleton
import proofs.«429706_j59657095741907_2_alg».proof.Proof.Gen.KernelIdeal.Launch
import proofs.«429706_j59657095741907_2_alg».proof.Proof.Gen.KernelIdeal.Points
import proofs.«429706_j59657095741907_2_alg».proof.Proof.Gen.KernelIdeal.Frame
import proofs.«429706_j59657095741907_2_alg».proof.Proof.Gen.ReferenceIdeal
import proofs.«429706_j59657095741907_2_alg».proof.Proof.Gen.Pre_finite_inputs
import proofs.«429706_j59657095741907_2_alg».proof.Proof.Gen.KernelIdeal.Value
import proofs.«429706_j59657095741907_2_alg».proof.Proof.Gen.ReferenceIdeal.Run
import proofs.«429706_j59657095741907_2_alg».proof.Proof.Gen.ReferenceIdeal.Read
import proofs.«429706_j59657095741907_2_alg».proof.Proof.Bridge
import proofs.«429706_j59657095741907_2_alg».proof.Proof.RefIsG
import Idealize.ShloMosaic.Adequacy
import Idealize.ShloMosaic.Init

noncomputable section

namespace Cert.Proof

open Idealize.ShloMosaic Idealize.ShloMosaic.TcCoe Idealize.SL.Sem

section
variable [Cert.Kernel.Facts] [Cert.KernelIdeal.Facts] [Cert.ReferenceIdeal.Facts] [Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at G of the (agreeing) arguments. -/
theorem algebraic : Cert.algebraic_KernelIdeal_ReferenceIdeal := by
  intro m ρ m' ρ' _ hagree
  refine ⟨fun c => QuantMlp.Accum.Out m c, QuantMlp.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, QuantMlp.Ref.result_eq]
  show _ = QuantMlp.Accum.Out m c
  rw [QuantMlp.Bridge.out_eq, (hagree c).1, (hagree c).2.1, (hagree c).2.2.1, (hagree c).2.2.2.1, (hagree c).2.2.2.2]

end

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
